-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S125000x3 : Shape := ⟨2, ![125000, 3]⟩
abbrev S2x4000000 : Shape := ⟨2, ![2, 4000000]⟩
abbrev S10x3 : Shape := ⟨2, ![10, 3]⟩
abbrev S10 : Shape := ⟨1, ![10]⟩
abbrev S1x20 : Shape := ⟨2, ![1, 20]⟩
abbrev S1 : Shape := ⟨1, ![1]⟩
abbrev S_ : Shape := ⟨0, ![]⟩

class Facts : Prop where
  bcast_S_S125000x3 : S_.BroadcastsInDim S125000x3 (![] : Fin 0 → Fin S125000x3.rank)
  reducesTo_S125000x3_S_d0_1 : S125000x3.ReducesTo [0, 1] S_
  h_S_ : 0 < S_.numel
  bcast_S_S10x3 : S_.BroadcastsInDim S10x3 (![] : Fin 0 → Fin S10x3.rank)
  reducesTo_S10x3_S_d0_1 : S10x3.ReducesTo [0, 1] S_
  bcast_S_S10 : S_.BroadcastsInDim S10 (![] : Fin 0 → Fin S10.rank)
  reducesTo_S10_S_d0 : S10.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S10 .f32) (main_arg6 : FVec F S1x20 .f32) (main_arg7 : FVec F S1 .f32) (main_v13 : IVec S_ 1) (main_v16 : IVec S10x3 1) : IVec S_ 1 :=
  let main_c_5 : IVec S_ 1 := constantI S_ 1 1#1
  let main_v17 : IVec S_ 1 := (fun x v => Host.reduce IntOp.andi x v reducesTo_S10x3_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S1x20 .f32 := Host.absf main_arg6
  let main_cst_8 : FVec F S_ .f32 := constant S_ .f32 0x7F800000#32
  let main_v25 : FVec F S1x20 .f32 := broadcastInDim S1x20 ![] bcast_S_S1x20 main_cst_8
  let main_v26 : IVec S1x20 1 := cmpf .olt main_v24 main_v25
  let main_c_9 : IVec S_ 1 := constantI S_ 1 1#1
  let main_v27 : IVec S_ 1 := (fun x v => Host.reduce IntOp.andi x v reducesTo_S1x20_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S125000x3 .f32) (main_arg1 : IVec S2x4000000 32) (main_arg2 : FVec F S10x3 .f32) (main_arg3 : FVec F S10 .f32) (main_arg4 : FVec F S10x3 .f32) (main_arg5 : FVec F S10 .f32) (main_arg6 : FVec F S1x20 .f32) (main_arg7 : FVec F S1 .f32) : IVec S_ 1 :=
  let main_v0 : FVec F S125000x3 .f32 := Host.absf main_arg0
  let main_cst : FVec F S_ .f32 := constant S_ .f32 0x7F800000#32
  let main_v1 : FVec F S125000x3 .f32 := broadcastInDim S125000x3 ![] bcast_S_S125000x3 main_cst
  let main_v2 : IVec S125000x3 1 := cmpf .olt main_v0 main_v1
  let main_c : IVec S_ 1 := constantI S_ 1 1#1
  let main_v3 : IVec S_ 1 := (fun x v => Host.reduce IntOp.andi x v reducesTo_S125000x3_S_d0_1 h_S_) main_v2 main_c
  let main_v4 : FVec F S10x3 .f32 := Host.absf main_arg2
  let main_cst_0 : FVec F S_ .f32 := constant S_ .f32 0x7F800000#32
  let main_v5 : FVec F S10x3 .f32 := broadcastInDim S10x3 ![] bcast_S_S10x3 main_cst_0
  let main_v6 : IVec S10x3 1 := cmpf .olt main_v4 main_v5
  let main_c_1 : IVec S_ 1 := constantI S_ 1 1#1
  let main_v7 : IVec S_ 1 := (fun x v => Host.reduce IntOp.andi x v reducesTo_S10x3_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x3 .f32 := Host.absf main_arg4
  let main_cst_4 : FVec F S_ .f32 := constant S_ .f32 0x7F800000#32
  let main_v15 : FVec F S10x3 .f32 := broadcastInDim S10x3 ![] bcast_S_S10x3 main_cst_4
  let main_v16 : IVec S10x3 1 := cmpf .olt main_v14 main_v15
  fn_part1 (F := F) main_arg5 main_arg6 main_arg7 main_v13 main_v16
-- ==== Kernel.lean ====
abbrev S125000x3 : Shape := ⟨2, ![125000, 3]⟩
abbrev S2x4000000 : Shape := ⟨2, ![2, 4000000]⟩
abbrev S10x3 : Shape := ⟨2, ![10, 3]⟩
abbrev S10 : Shape := ⟨1, ![10]⟩
abbrev S1x20 : Shape := ⟨2, ![1, 20]⟩
abbrev S1 : Shape := ⟨1, ![1]⟩
abbrev S3x125000 : Shape := ⟨2, ![3, 125000]⟩
abbrev S10x1 : Shape := ⟨2, ![10, 1]⟩
abbrev S10x125000 : Shape := ⟨2, ![10, 125000]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S10x4000000 : Shape := ⟨2, ![10, 4000000]⟩
abbrev S1x10 : Shape := ⟨2, ![1, 10]⟩
abbrev S1x1 : Shape := ⟨2, ![1, 1]⟩
abbrev S10x32000 : Shape := ⟨2, ![10, 32000]⟩
abbrev S1x32000 : Shape := ⟨2, ![1, 32000]⟩
abbrev S32000 : Shape := ⟨1, ![32000]⟩

abbrev nBuf : Space → Nat
  | .hbm => 38
  | .vmem => 13
  | .smem => 0
  | _ => 0

abbrev bufTy : (tb : Table) → Fin (tcTables nBuf tb) → BufTy
  | .hbm, ⟨0, _⟩ => ⟨S125000x3, .f32⟩
  | .hbm, ⟨1, _⟩ => ⟨S2x4000000, .i32⟩
  | .hbm, ⟨2, _⟩ => ⟨S10x3, .f32⟩
  | .hbm, ⟨3, _⟩ => ⟨S10, .f32⟩
  | .hbm, ⟨4, _⟩ => ⟨S10x3, .f32⟩
  | .hbm, ⟨5, _⟩ => ⟨S10, .f32⟩
  | .hbm, ⟨6, _⟩ => ⟨S1x20, .f32⟩
  | .hbm, ⟨7, _⟩ => ⟨S1, .f32⟩
  | .hbm, ⟨8, _⟩ => ⟨S3x125000, .f32⟩
  | .hbm, ⟨9, _⟩ => ⟨S10x1, .f32⟩
  | .hbm, ⟨10, _⟩ => ⟨S10x125000, .f32⟩
  | .hbm, ⟨11, _⟩ => ⟨S1x4000000, .i32⟩
  | .hbm, ⟨12, _⟩ => ⟨S4000000, .i32⟩
  | .hbm, ⟨13, _⟩ => ⟨S1x4000000, .i32⟩
  | .hbm, ⟨14, _⟩ => ⟨S4000000, .i32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S10x4000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S10x4000000, .f32⟩
  | .hbm, ⟨33, _⟩ => ⟨S1x10, .f32⟩
  | .hbm, ⟨34, _⟩ => ⟨S1x10, .f32⟩
  | .hbm, ⟨35, _⟩ => ⟨S1x1, .f32⟩
  | .hbm, ⟨36, _⟩ => ⟨S1x4000000, .f32⟩
  | .hbm, ⟨37, _⟩ => ⟨S4000000x1, .f32⟩
  | .local _ .vmem, ⟨0, _⟩ => ⟨S3x125000, .f32⟩
  | .local _ .vmem, ⟨1, _⟩ => ⟨S10x3, .f32⟩
  | .local _ .vmem, ⟨2, _⟩ => ⟨S10x1, .f32⟩
  | .local _ .vmem, ⟨3, _⟩ => ⟨S10x125000, .f32⟩
  | .local _ .vmem, ⟨4, _⟩ => ⟨S10x32000, .f32⟩
  | .local _ .vmem, ⟨5, _⟩ => ⟨S10x32000, .f32⟩
  | .local _ .vmem, ⟨6, _⟩ => ⟨S10x32000, .f32⟩
  | .local _ .vmem, ⟨7, _⟩ => ⟨S10x32000, .f32⟩
  | .local _ .vmem, ⟨8, _⟩ => ⟨S1x10, .f32⟩
  | .local _ .vmem, ⟨9, _⟩ => ⟨S1x10, .f32⟩
  | .local _ .vmem, ⟨10, _⟩ => ⟨S1x1, .f32⟩
  | .local _ .vmem, ⟨11, _⟩ => ⟨S1x32000, .f32⟩
  | .local _ .vmem, ⟨12, _⟩ => ⟨S1x32000, .f32⟩
  | _, _ => ⟨S125000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x125000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x125000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S10x32000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x32000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S125000x3_S3x125000_1_0 : S125000x3.Transposes [1, 0] S3x125000
  shapeCasts_S10_S10x1 : S10.ShapeCasts S10x1
  inb_S3x125000_S3x125000_0_0 : ∀ a, (![0, 0] : Fin 2 → Nat) a + S3x125000.size a ≤ S3x125000.size a
  h_S3x125000 : 0 < S3x125000.numel
  shapeCasts_S3x125000_S3x125000 : S3x125000.ShapeCasts S3x125000
  inb_S10x3_S10x3_0_0 : ∀ a, (![0, 0] : Fin 2 → Nat) a + S10x3.size a ≤ S10x3.size a
  h_S10x3 : 0 < S10x3.numel
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x125000 : S10x1.Broadcasts S10x125000
  inb_S10x125000_S10x125000_0_0 : ∀ a, (![0, 0] : Fin 2 → Nat) a + S10x125000.size a ≤ S10x125000.size a
  h_S10x125000 : 0 < S10x125000.numel
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S1x20_S1x10_0_0 : S1x20.Slices ![0, 0] S1x10
  slices_S1x20_S1x10_0_10 : S1x20.Slices ![0, 10] S1x10
  shapeCasts_S1_S1x1 : S1.ShapeCasts S1x1
  inb_S10x32000_S10x32000_0_0 : ∀ a, (![0, 0] : Fin 2 → Nat) a + S10x32000.size a ≤ S10x32000.size a
  h_S10x32000 : 0 < S10x32000.numel
  shapeCasts_S10x32000_S10x32000 : S10x32000.ShapeCasts S10x32000
  reduces_S10x32000_S32000 : S10x32000.Reduces [0] S32000
  shapeCasts_S32000_S1x32000 : S32000.ShapeCasts S1x32000
  natLt_1_32 : 1 < 32
  inb_S1x10_S1x10_0_0 : ∀ a, (![0, 0] : Fin 2 → Nat) a + S1x10.size a ≤ S1x10.size a
  h_S1x10 : 0 < S1x10.numel
  shapeCasts_S1x10_S1x10 : S1x10.ShapeCasts S1x10
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32000 : S1x1.Broadcasts S1x32000
  inb_S1x32000_S1x32000_0_0 : ∀ a, (![0, 0] : Fin 2 → Nat) a + S1x32000.size a ≤ S1x32000.size a
  h_S1x32000 : 0 < S1x32000.numel
  transposes_S1x4000000_S4000000x1_1_0 : S1x4000000.Transposes [1, 0] S4000000x1
  dot_S10x3_S3x125000_S10x125000_1_0_0_1_n_n_wf : DotDims.WF S10x3 S3x125000 S10x125000 [1] [0] [0] [1] [] []
  gather_S10x125000_S4000000x1_S10x4000000_0_1_n_n_1_1_101_wf : GatherDims.WF S10x125000 S4000000x1 S10x4000000 [0] [1] [] [1] [] 1 ![10, 1]
  dot_S1x10_S10x32000_S1x32000_1_0_0_1_n_n_wf : DotDims.WF S1x10 S10x32000 S1x32000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x125000.size a ≤ S3x125000.size a
  hwx0_0 : ∀ i : grid0.Coords, EltTy.bits .f32 = 32 ∨ (Rect.block (s := S3x125000) S3x125000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x3.size a ≤ S10x3.size a
  hwx0_1 : ∀ i : grid0.Coords, EltTy.bits .f32 = 32 ∨ (Rect.block (s := S10x3) S10x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1.size a ≤ S10x1.size a
  hwx0_2 : ∀ i : grid0.Coords, EltTy.bits .f32 = 32 ∨ (Rect.block (s := S10x1) S10x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x125000.size a ≤ S10x125000.size a
  hwx0_3 : ∀ i : grid0.Coords, EltTy.bits .f32 = 32 ∨ (Rect.block (s := S10x125000) S10x125000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10x32000.size a ≤ S10x4000000.size a
  hwx1_0 : ∀ i : grid1.Coords, EltTy.bits .f32 = 32 ∨ (Rect.block (s := S10x4000000) S10x32000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10x32000.size a ≤ S10x4000000.size a
  hwx1_1 : ∀ i : grid1.Coords, EltTy.bits .f32 = 32 ∨ (Rect.block (s := S10x4000000) S10x32000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32000.size a ≤ S1x4000000.size a
  hwx1_5 : ∀ i : grid1.Coords, EltTy.bits .f32 = 32 ∨ (Rect.block (s := S1x4000000) S1x32000.size (cc1_transform_5 i) (hinb1_5 i)).WholeWords (EltTy.packing .f32)

variable [Facts₀]

def dot_S10x3_S3x125000_S10x125000_1_0_0_1_n_n : DotDims S10x3 S3x125000 S10x125000 where
  lhsContracting := [1]
  rhsContracting := [0]
  lhsNonContracting := [0]
  rhsNonContracting := [1]
  lhsBatch := []
  rhsBatch := []
  wf := dot_S10x3_S3x125000_S10x125000_1_0_0_1_n_n_wf
def gather_S10x125000_S4000000x1_S10x4000000_0_1_n_n_1_1_101 : GatherDims S10x125000 S4000000x1 S10x4000000 where
  offsetDims := [0]
  collapsedSliceDims := [1]
  operandBatchingDims := []
  startIndicesBatchingDims := []
  startIndexMap := [1]
  indexVectorDim := 1
  sliceSizes := ![10, 1]
  wf := gather_S10x125000_S4000000x1_S10x4000000_0_1_n_n_1_1_101_wf
def dot_S1x10_S10x32000_S1x32000_1_0_0_1_n_n : DotDims S1x10 S10x32000 S1x32000 where
  lhsContracting := [1]
  rhsContracting := [0]
  lhsNonContracting := [0]
  rhsNonContracting := [1]
  lhsBatch := []
  rhsBatch := []
  wf := dot_S1x10_S10x32000_S1x32000_1_0_0_1_n_n_wf

abbrev win0_0 : Pipeline.Window sig grid0 :=
  Pipeline.Window.ofSpec (Memref.whole main_v0) S3x125000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10x125000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10x32000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10x32000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x32000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S125000x3 : Shape := ⟨2, ![125000, 3]⟩
abbrev S2x4000000 : Shape := ⟨2, ![2, 4000000]⟩
abbrev S10x3 : Shape := ⟨2, ![10, 3]⟩
abbrev S10 : Shape := ⟨1, ![10]⟩
abbrev S1x20 : Shape := ⟨2, ![1, 20]⟩
abbrev S1 : Shape := ⟨1, ![1]⟩
abbrev S3x10 : Shape := ⟨2, ![3, 10]⟩
abbrev S125000x10 : Shape := ⟨2, ![125000, 10]⟩
abbrev S1x10 : Shape := ⟨2, ![1, 10]⟩
abbrev S_ : Shape := ⟨0, ![]⟩
abbrev S1x4000000 : Shape := ⟨2, ![1, 4000000]⟩
abbrev S4000000 : Shape := ⟨1, ![4000000]⟩
abbrev S4000000x1 : Shape := ⟨2, ![4000000, 1]⟩
abbrev S4000000x10 : Shape := ⟨2, ![4000000, 10]⟩
abbrev S4000000x20 : Shape := ⟨2, ![4000000, 20]⟩
abbrev S20x1 : Shape := ⟨2, ![20, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S125000x3, .f32⟩
  | .hbm, ⟨1, _⟩ => ⟨S2x4000000, .i32⟩
  | .hbm, ⟨2, _⟩ => ⟨S10x3, .f32⟩
  | .hbm, ⟨3, _⟩ => ⟨S10, .f32⟩
  | .hbm, ⟨4, _⟩ => ⟨S10x3, .f32⟩
  | .hbm, ⟨5, _⟩ => ⟨S10, .f32⟩
  | .hbm, ⟨6, _⟩ => ⟨S1x20, .f32⟩
  | .hbm, ⟨7, _⟩ => ⟨S1, .f32⟩
  | .hbm, ⟨8, _⟩ => ⟨S3x10, .f32⟩
  | .hbm, ⟨9, _⟩ => ⟨S125000x10, .f32⟩
  | .hbm, ⟨10, _⟩ => ⟨S1x10, .f32⟩
  | .hbm, ⟨11, _⟩ => ⟨S125000x10, .f32⟩
  | .hbm, ⟨12, _⟩ => ⟨S125000x10, .f32⟩
  | .hbm, ⟨13, _⟩ => ⟨S125000x10, .f32⟩
  | .hbm, ⟨14, _⟩ => ⟨S125000x10, .f32⟩
  | .hbm, ⟨15, _⟩ => ⟨S_, .f32⟩
  | .hbm, ⟨16, _⟩ => ⟨S125000x10, .f32⟩
  | .hbm, ⟨17, _⟩ => ⟨S125000x10, .f32⟩
  | .hbm, ⟨18, _⟩ => ⟨S_, .f32⟩
  | .hbm, ⟨19, _⟩ => ⟨S125000x10, .f32⟩
  | .hbm, ⟨20, _⟩ => ⟨S125000x10, .f32⟩
  | .hbm, ⟨21, _⟩ => ⟨S3x10, .f32⟩
  | .hbm, ⟨22, _⟩ => ⟨S125000x10, .f32⟩
  | .hbm, ⟨23, _⟩ => ⟨S1x10, .f32⟩
  | .hbm, ⟨24, _⟩ => ⟨S125000x10, .f32⟩
  | .hbm, ⟨25, _⟩ => ⟨S125000x10, .f32⟩
  | .hbm, ⟨26, _⟩ => ⟨S125000x10, .f32⟩
  | .hbm, ⟨27, _⟩ => ⟨S125000x10, .f32⟩
  | .hbm, ⟨28, _⟩ => ⟨S_, .f32⟩
  | .hbm, ⟨29, _⟩ => ⟨S125000x10, .f32⟩
  | .hbm, ⟨30, _⟩ => ⟨S125000x10, .f32⟩
  | .hbm, ⟨31, _⟩ => ⟨S_, .f32⟩
  | .hbm, ⟨32, _⟩ => ⟨S125000x10, .f32⟩
  | .hbm, ⟨33, _⟩ => ⟨S125000x10, .f32⟩
  | .hbm, ⟨34, _⟩ => ⟨S1x4000000, .i32⟩
  | .hbm, ⟨35, _⟩ => ⟨S4000000, .i32⟩
  | .hbm, ⟨36, _⟩ => ⟨S1x4000000, .i32⟩
  | .hbm, ⟨37, _⟩ => ⟨S4000000, .i32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000x10, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000x10, .f32⟩
  | .hbm, ⟨56, _⟩ => ⟨S4000000x10, .f32⟩
  | .hbm, ⟨57, _⟩ => ⟨S4000000x10, .f32⟩
  | .hbm, ⟨58, _⟩ => ⟨S_, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .i1⟩
  | .hbm, ⟨64, _⟩ => ⟨S4000000x20, .f32⟩
  | .hbm, ⟨65, _⟩ => ⟨S20x1, .f32⟩
  | .hbm, ⟨66, _⟩ => ⟨S4000000x1, .f32⟩
  | .hbm, ⟨67, _⟩ => ⟨S1x1, .f32⟩
  | .hbm, ⟨68, _⟩ => ⟨S4000000x1, .f32⟩
  | .hbm, ⟨69, _⟩ => ⟨S4000000x1, .f32⟩
  | .hbm, ⟨70, _⟩ => ⟨S4000000x1, .i1⟩
  | .hbm, ⟨71, _⟩ => ⟨S4000000x1, .f32⟩
  | .hbm, ⟨72, _⟩ => ⟨S4000000x1, .f32⟩
  | _, _ => ⟨S125000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  transposes_S10x3_S3x10_1_0 : S10x3.Transposes [1, 0] S3x10
  bcast_S10_S1x10_1 : S10.BroadcastsInDim S1x10 (![1] : Fin 1 → Fin S1x10.rank)
  bcast_S1x10_S125000x10_0_1 : S1x10.BroadcastsInDim S125000x10 (![0, 1] : Fin 2 → Fin S125000x10.rank)
  bcast_S_S125000x10 : S_.BroadcastsInDim S125000x10 (![] : Fin 0 → Fin S125000x10.rank)
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000x10_S4000000_d1 : S4000000x10.ReducesTo [1] S4000000
  h_S_ : 0 < S_.numel
  concatenates_S4000000x10_S4000000x10_S4000000x20_d1 : Shape.Concatenates [S4000000x10, S4000000x10] S4000000x20 1
  transposes_S1x20_S20x1_1_0 : S1x20.Transposes [1, 0] S20x1
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  dot_S125000x3_S3x10_S125000x10_1_0_0_1_n_n_wf : DotDims.WF S125000x3 S3x10 S125000x10 [1] [0] [0] [1] [] []
  gather_S125000x10_S4000000x1_S4000000x10_1_0_n_n_0_1_110_wf : GatherDims.WF S125000x10 S4000000x1 S4000000x10 [1] [0] [] [0] [] 1 ![1, 10]
  dot_S4000000x20_S20x1_S4000000x1_1_0_0_1_n_n_wf : DotDims.WF S4000000x20 S20x1 S4000000x1 [1] [0] [0] [1] [] []

variable [Facts₀]

def dot_S125000x3_S3x10_S125000x10_1_0_0_1_n_n : DotDims S125000x3 S3x10 S125000x10 where
  lhsContracting := [1]
  rhsContracting := [0]
  lhsNonContracting := [0]
  rhsNonContracting := [1]
  lhsBatch := []
  rhsBatch := []
  wf := dot_S125000x3_S3x10_S125000x10_1_0_0_1_n_n_wf
def gather_S125000x10_S4000000x1_S4000000x10_1_0_n_n_0_1_110 : GatherDims S125000x10 S4000000x1 S4000000x10 where
  offsetDims := [1]
  collapsedSliceDims := [0]
  operandBatchingDims := []
  startIndicesBatchingDims := []
  startIndexMap := [0]
  indexVectorDim := 1
  sliceSizes := ![1, 10]
  wf := gather_S125000x10_S4000000x1_S4000000x10_1_0_n_n_0_1_110_wf
def dot_S4000000x20_S20x1_S4000000x1_1_0_0_1_n_n : DotDims S4000000x20 S20x1 S4000000x1 where
  lhsContracting := [1]
  rhsContracting := [0]
  lhsNonContracting := [0]
  rhsNonContracting := [1]
  lhsBatch := []
  rhsBatch := []
  wf := dot_S4000000x20_S20x1_S4000000x1_1_0_0_1_n_n_wf

class Facts : Prop extends Facts₀ where

variable [Facts]
-- ==== Proof.Spec.lean ====
/-
  The edge score, as mathematics over the extended reals.

  A node n carries ten features  h(n, k) = logistic( sum_q W1(k, q) * x(n, q) + b1(k) ).  An edge e with endpoints
  s = src(e) and d = dst(e) is scored
      ( sum_k u(k) * h(s, k)  +  sum_k v(k) * h(d, k)  +  beta )  *  [ |h(s, .) - h(d, .)| < 1/2 ],
  where u and v are the two halves of the output layer's weight row, beta its bias, |.| the Euclidean norm (the square
  root of the sum of squared differences) and [.] is 1 when the comparison holds and 0 when it does not.

  Here: the three functions (act, near, edge), the comparison bit read as a number in the two ways the programs
  spell it, and the splitting of a sum over twenty terms into two sums over ten.
-/
import Idealize.ShloMosaic.PureOps.Ideal
import Idealize.ShloMosaic.PureOps.Ideal.Laws
import Idealize.ShloMosaic.Lib.ValueIdx

noncomputable section

open scoped BigOperators

namespace Cert.EdgeSpec

open Idealize.ShloMosaic

/-- One feature of one node: the logistic function of an affine form of the node's three coordinates. -/
def act (w x : Fin 3 → EReal) (b : EReal) : EReal := Ideal.logistic ((∑ q : Fin 3, w q * x q) + b)

/-- The squared Euclidean distance of two feature vectors. -/
def sqdist (s d : Fin 10 → EReal) : EReal := ∑ k : Fin 10, (s k - d k) * (s k - d k)

/-- 1 when the two feature vectors are closer than one half, 0 otherwise. -/
def near (s d : Fin 10 → EReal) : EReal :=
  (((Ideal.cmp .olt (Ideal.sqrt (sqdist s d)) (Ideal.ofBits .f32 0x3F000000#32)).toNat : ℝ) : EReal)

/-- The score of an edge from its endpoints' features, the two weight halves and the bias. -/
def edge (s d u v : Fin 10 → EReal) (β : EReal) : EReal :=
  ((∑ k : Fin 10, u k * s k) + (∑ k : Fin 10, v k * d k) + β) * near s d

/-- The node an index word names: the word of row e of the index column, read signed and clamped into the table. -/
def node (I : IVec ⟨2, ![4000000, 1]⟩ 32) (e : Fin 4000000) : Fin 125000 :=
  ⟨min (I (ValueIdx.ix2 e ⟨0, Nat.one_pos⟩)).toInt.toNat (125000 - 1), by omega⟩

/-- Feature k of node n, from the coordinates x : [125000, 3], the weights W : [10, 3] and the bias b : [10]. -/
def feat (x : (⟨2, ![125000, 3]⟩ : Shape).Idx → EReal) (W : (⟨2, ![10, 3]⟩ : Shape).Idx → EReal)
    (b : (⟨1, ![10]⟩ : Shape).Idx → EReal) (n : Fin 125000) (k : Fin 10) : EReal :=
  act (fun q => W (ValueIdx.ix2 k q)) (fun q => x (ValueIdx.ix2 n q)) (b (ValueIdx.ix1 k))

/-- The score of edge e, from the two index columns and the six float arguments. -/
def score (x : (⟨2, ![125000, 3]⟩ : Shape).Idx → EReal) (W : (⟨2, ![10, 3]⟩ : Shape).Idx → EReal)
    (b : (⟨1, ![10]⟩ : Shape).Idx → EReal) (Wx : (⟨2, ![1, 20]⟩ : Shape).Idx → EReal) (bx : (⟨1, ![1]⟩ : Shape).Idx → EReal)
    (Is Id : IVec ⟨2, ![4000000, 1]⟩ 32) (e : Fin 4000000) : EReal :=
  edge (fun k => feat x W b (node Is e) k) (fun k => feat x W b (node Id e) k)
    (fun k => Wx (ValueIdx.ix2 0 ⟨k.val, by omega⟩)) (fun k => Wx (ValueIdx.ix2 0 ⟨k.val + 10, by omega⟩)) (bx (ValueIdx.ix1 0))

/-- A one-bit word widened to 32 bits and read signed is the bit read unsigned. -/
theorem widen_signed (b : BitVec 1) : ((b.zeroExtend 32).toInt : ℝ) = (b.toNat : ℝ) := by
  have h : ∀ b : BitVec 1, (b.zeroExtend 32).toInt = (b.toNat : ℤ) := by decide
  rw [h b]; simp

/-- A sum over twenty terms is the sum over the first ten plus the sum over the last ten. -/
theorem sum_twenty (f : Fin 20 → EReal) :
    ∑ k : Fin 20, f k = (∑ k : Fin 10, f ⟨k.val, by omega⟩) + ∑ k : Fin 10, f ⟨k.val + 10, by omega⟩ := by
  have h := Fin.sum_univ_add (a := 10) (b := 10) (fun k : Fin (10 + 10) => f k)
  refine h.trans ?_
  refine congrArg₂ (· + ·) rfl (Finset.sum_congr rfl fun k _ => congrArg f (Fin.ext ?_))
  show 10 + k.val = k.val + 10
  omega

end Cert.EdgeSpec

end
-- ==== Proof.NodePayload.lean ====
/-
  The first kernel's arithmetic at one entry: feature k of node n is the logistic function of the affine form
  sum_q W(k, q) * xT(q, n) + b(k, 0) of the three blocks the body loads.
-/
import proofs.«123196_j22153441312926_1_alg».proof.Proof.Gen.KernelIdeal.Skeleton
import proofs.«123196_j22153441312926_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Cert.KernelIdeal Cert.KernelIdeal.Gen Idealize.ShloMosaic Idealize.ShloMosaic.ValueIdx Cert.EdgeSpec

/-- The left operand's row is the result's row. -/
theorem lhs_axis0 (i : S10x125000.Idx) (q : dot_S10x3_S3x125000_S10x125000_1_0_0_1_n_n.contr.Idx) : (dot_S10x3_S3x125000_S10x125000_1_0_0_1_n_n.lhsIdx i q 0).val = (i 0).val := by
  unfold DotDims.lhsIdx
  rw [dif_neg (show ¬(0 : Fin S10x3.rank) ∈ dot_S10x3_S3x125000_S10x125000_1_0_0_1_n_n.lhsBatch by decide),
    dif_pos (show (0 : Fin S10x3.rank) ∈ dot_S10x3_S3x125000_S10x125000_1_0_0_1_n_n.lhsNonContracting by decide)]
  rfl

/-- The left operand's column is the summation index. -/
theorem lhs_axis1 (i : S10x125000.Idx) (q : dot_S10x3_S3x125000_S10x125000_1_0_0_1_n_n.contr.Idx) : (dot_S10x3_S3x125000_S10x125000_1_0_0_1_n_n.lhsIdx i q 1).val = (q ⟨0, by decide⟩).val :=
  dot_S10x3_S3x125000_S10x125000_1_0_0_1_n_n.lhsIdx_val_of_single rfl i q

/-- The right operand's row is the summation index. -/
theorem rhs_axis0 (i : S10x125000.Idx) (q : dot_S10x3_S3x125000_S10x125000_1_0_0_1_n_n.contr.Idx) : (dot_S10x3_S3x125000_S10x125000_1_0_0_1_n_n.rhsIdx i q 0).val = (q ⟨0, by decide⟩).val :=
  dot_S10x3_S3x125000_S10x125000_1_0_0_1_n_n.rhsIdx_val_of_single rfl i q

/-- The right operand's column is the result's column. -/
theorem rhs_axis1 (i : S10x125000.Idx) (q : dot_S10x3_S3x125000_S10x125000_1_0_0_1_n_n.contr.Idx) : (dot_S10x3_S3x125000_S10x125000_1_0_0_1_n_n.rhsIdx i q 1).val = (i 1).val := by
  unfold DotDims.rhsIdx
  rw [dif_neg (show ¬(1 : Fin S3x125000.rank) ∈ dot_S10x3_S3x125000_S10x125000_1_0_0_1_n_n.rhsBatch by decide),
    dif_pos (show (1 : Fin S3x125000.rank) ∈ dot_S10x3_S3x125000_S10x125000_1_0_0_1_n_n.rhsNonContracting by decide)]
  rfl

/-- The product into the zero accumulator, at entry (k, n): the sum over q of W(k, q) * xT(q, n). -/
theorem matmul_entry (W : FVec Ideal S10x3 .f32) (X : FVec Ideal S3x125000 .f32) (k : Fin 10) (n : Fin 125000) :
    matmul (F := Ideal) dot_S10x3_S3x125000_S10x125000_1_0_0_1_n_n (some .fp32) W X (constant S10x125000 .f32 0x00000000#32) (ix2 k n)
      = ∑ q : Fin 3, W (ix2 k q) * X (ix2 q n) := by
  show FloatOps.matmul dot_S10x3_S3x125000_S10x125000_1_0_0_1_n_n (some .fp32) W X (constant S10x125000 .f32 0x00000000#32) (ix2 k n) = _
  rw [Ideal.matmul_constant_zero_apply, ← Equiv.sum_comp (contrEquiv1 dot_S10x3_S3x125000_S10x125000_1_0_0_1_n_n 3 rfl rfl).symm]
  refine Finset.sum_congr rfl fun q _ => ?_
  have hq := contrEquiv1_symm_val dot_S10x3_S3x125000_S10x125000_1_0_0_1_n_n 3 rfl rfl q
  have el : dot_S10x3_S3x125000_S10x125000_1_0_0_1_n_n.lhsIdx (ix2 k n) ((contrEquiv1 dot_S10x3_S3x125000_S10x125000_1_0_0_1_n_n 3 rfl rfl).symm q) = ix2 k q := funext fun a => Fin.ext (by
    match a with
    | ⟨0, _⟩ => exact lhs_axis0 _ _
    | ⟨1, _⟩ => exact (lhs_axis1 _ _).trans hq)
  have er : dot_S10x3_S3x125000_S10x125000_1_0_0_1_n_n.rhsIdx (ix2 k n) ((contrEquiv1 dot_S10x3_S3x125000_S10x125000_1_0_0_1_n_n 3 rfl rfl).symm q) = ix2 q n := funext fun a => Fin.ext (by
    match a with
    | ⟨0, _⟩ => exact (rhs_axis0 _ _).trans hq
    | ⟨1, _⟩ => exact rhs_axis1 _ _)
  rw [el, er]

/-- The bias column spread along the nodes, at entry (k, n): b(k, 0). -/
theorem bias_entry (b : FVec Ideal S10x1 .f32) (k : Fin 10) (n : Fin 125000) :
    broadcastTo S10x125000 b broadcasts_S10x1_S10x125000 (ix2 k n) = b (ix2 k 0) :=
  broadcastTo_apply b broadcasts_S10x1_S10x125000 (ix2 k n) (ix2 k 0) (fun a => match a with
    | ⟨0, _⟩ => by show k.val = if (10 : Nat) = 1 then 0 else k.val; rw [if_neg (by decide)]
    | ⟨1, _⟩ => by show 0 = if (1 : Nat) = 1 then 0 else n.val; rw [if_pos rfl])

theorem node_payload (x0 : Vec Ideal S3x125000 .f32) (x1 : Vec Ideal S10x3 .f32) (x2 : Vec Ideal S10x1 .f32)
    (k : Fin 10) (n : Fin 125000) :
    k0_pay1 (F := Ideal) x0 x1 x2 (ix2 k n)
      = act (fun q => x1 (ix2 k q)) (fun q => x0 (ix2 q n)) (x2 (ix2 k 0)) := by
  unfold k0_pay1 act
  rw [shapeCast_self, shapeCast_self]
  show Ideal.logistic (matmul (F := Ideal) dot_S10x3_S3x125000_S10x125000_1_0_0_1_n_n (some .fp32) x1 x0 (constant S10x125000 .f32 0x00000000#32) (ix2 k n)
    + broadcastTo S10x125000 x2 broadcasts_S10x1_S10x125000 (ix2 k n)) = _
  rw [matmul_entry, bias_entry]

end Cert.KernelIdeal.NodeValue

end
-- ==== Proof.NodeBlocks.lean ====
/-
  The first region has one grid point and every window is its whole array, so after the region the feature table
  [10, 125000] holds, entry by entry, the body's arithmetic of the three arrays the region found.
-/
import proofs.«123196_j22153441312926_1_alg».proof.Proof.Gen.KernelIdeal.Frame
import proofs.«123196_j22153441312926_1_alg».proof.Proof.NodePayload

set_option maxRecDepth 16384

noncomputable section

namespace Cert.KernelIdeal.NodeValue

open Cert.KernelIdeal Cert.KernelIdeal.Gen Idealize.ShloMosaic Idealize.ShloMosaic.TcCoe Idealize.ShloMosaic.ValueIdx Cert.EdgeSpec
open Idealize.SL.Sem

variable (V : (c : Dev nD) → (b : Ref sig .tc) → Buf (Elt Ideal) ((c : Thread nD τ).loc b))

namespace Blocks

/-- The offsets of a whole-buffer access, however the zeros are spelt. -/
theorem zero_offsets : (![0, 0] : Fin 2 → Nat) = fun _ => 0 := funext fun a => by fin_cases a <;> rfl

/-- Feature k of node n from row k of the weights, column n of the transposed coordinates and entry k of the
    bias column, as the region finds them. -/
def featEntry (c : Dev nD) (k : Fin 10) (n : Fin 125000) : EReal :=
  act (fun q => V c main_arg2 (ix2 k q)) (fun q => V c main_v0 (ix2 q n)) (V c main_v1 (ix2 k 0))

/-- The whole feature table: entry (k, n) is feature k of node n. -/
def featArr (c : Dev nD) : S10x125000.Idx → EReal := fun i => featEntry V c (i 0) (i 1)

/-- Every window's block sits at the origin of its array at the one grid point. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The block of the transposed coordinates is the whole array [3, 125000]. -/
theorem coordBlock_apply (c : Dev nD) (t : Fin cfg0.N) (q : Fin 3) (n : Fin 125000) :
    (iblk0 V c 0 t : Vec Ideal S3x125000 .f32) (ix2 q n) = V c main_v0 (ix2 q n) := by
  obtain ⟨h0, h1, -⟩ := block_index t
  unfold iblk0
  rw [View.read_apply]
  show V c main_v0 _ = V c main_v0 _
  congr 1
  funext a
  apply Fin.ext
  match a with
  | ⟨0, _⟩ => show win0_0.index t (0 : Fin 2) * 3 + 1 * q.val = q.val; rw [h0]; omega
  | ⟨1, _⟩ => show win0_0.index t (1 : Fin 2) * 125000 + 1 * n.val = n.val; rw [h1]; omega

/-- The block of the weights is the whole array [10, 3]. -/
theorem weightBlock_apply (c : Dev nD) (t : Fin cfg0.N) (k : Fin 10) (q : Fin 3) :
    (iblk0 V c 1 t : Vec Ideal S10x3 .f32) (ix2 k q) = V c main_arg2 (ix2 k q) := by
  obtain ⟨-, -, h0, h1, -⟩ := block_index t
  unfold iblk0
  rw [View.read_apply]
  show V c main_arg2 _ = V c main_arg2 _
  congr 1
  funext a
  apply Fin.ext
  match a with
  | ⟨0, _⟩ => show win0_1.index t (0 : Fin 2) * 10 + 1 * k.val = k.val; rw [h0]; omega
  | ⟨1, _⟩ => show win0_1.index t (1 : Fin 2) * 3 + 1 * q.val = q.val; rw [h1]; omega

/-- The block of the bias column is the whole array [10, 1]. -/
theorem biasBlock_apply (c : Dev nD) (t : Fin cfg0.N) (k : Fin 10) :
    (iblk0 V c 2 t : Vec Ideal S10x1 .f32) (ix2 k 0) = V c main_v1 (ix2 k 0) := by
  obtain ⟨-, -, -, -, h0, h1, -⟩ := block_index t
  unfold iblk0
  rw [View.read_apply]
  show V c main_v1 _ = V c main_v1 _
  congr 1
  funext a
  apply Fin.ext
  match a with
  | ⟨0, _⟩ => show win0_2.index t (0 : Fin 2) * 10 + 1 * k.val = k.val; rw [h0]; omega
  | ⟨1, _⟩ => show win0_2.index t (1 : Fin 2) * 1 + 1 * 0 = 0; rw [h1]

/-- What the body leaves in the output buffer at entry (k, n): feature k of node n. -/
theorem outBlock_apply (c : Dev nD) (t : Fin cfg0.N) (k : Fin 10) (n : Fin 125000) :
    out0_3 (F := Ideal) (iblk0 V c 0 t) (iblk0 V c 1 t) (iblk0 V c 2 t) (ix2 k n) = featEntry V c k n := by
  unfold out0_3
  rw [View.canon_unit_zero zero_offsets]
  simp only [View.ld_unit_zero (S := S3x125000) zero_offsets, View.ld_unit_zero (S := S10x3) zero_offsets,
    View.ld_unit_zero (S := S10x1) zero_offsets]
  rw [node_payload]
  unfold featEntry
  simp only [coordBlock_apply V c t, weightBlock_apply V c t, biasBlock_apply V c t]

/-- What the one point writes back is the whole feature table, read through the output window's block. -/
theorem flushed_eq (c : Dev nD) (t : Fin cfg0.N) :
    (dat0 (F := Ideal) V c).flushed 3 t = ((cfg0.win 3).blk t).view.read (Elt Ideal) (featArr V c) := by
  show (cfg0.win 3).cut (grid0.coords t) ((dat0 V c).after 3 t) = _
  rw [after0_3]
  obtain ⟨-, -, -, -, -, -, h0, h1⟩ := block_index t
  funext j
  rw [View.read_apply]
  obtain ⟨k, n, rfl⟩ : ∃ (k : Fin 10) (n : Fin 125000), j = ix2 k n := ⟨j 0, j 1, eq_ix2 j⟩
  show out0_3 (F := Ideal) (iblk0 V c 0 t) (iblk0 V c 1 t) (iblk0 V c 2 t) (ix2 k n)
    = featArr V c (((cfg0.win 3).blk t).view.emb (ix2 k n))
  rw [outBlock_apply V c t k n]
  unfold featArr
  refine congrArg₂ (featEntry V c) (Fin.ext ?_) (Fin.ext ?_)
  · show k.val = win0_3.index t (0 : Fin 2) * 10 + 1 * k.val
    rw [h0]; omega
  · show n.val = win0_3.index t (1 : Fin 2) * 125000 + 1 * n.val
    rw [h1]; omega

/-- An index of the table is in the point's block iff each coordinate is in the block's range on its axis. -/
theorem mem_block (t : Fin cfg0.N) (i : S10x125000.Idx) :
    i ∈ ((cfg0.win 3).blk t).view.set ↔ ∀ a : Fin 2, win0_3.index t a * S10x125000.size a ≤ (i a).val
      ∧ (i a).val < win0_3.index t a * S10x125000.size a + S10x125000.size a := by
  show i ∈ ((View.whole main_v2).slice (win0_3.rect t)).set ↔ _
  rw [View.set_slice_whole, Rect.mem_set_unit]
  exact Iff.rfl

/-- The one block is the whole table. -/
theorem covered (i : S10x125000.Idx) :
    ∃ t : Fin cfg0.N, (cfg0.win 3).flush t = true ∧ i ∈ ((cfg0.win 3).blk t).view.set := by
  have hi0 : (i 0).val < 10 := (i 0).isLt
  have hi1 : (i 1).val < 125000 := (i 1).isLt
  obtain ⟨-, -, -, -, -, -, h0, h1⟩ := block_index t0_0
  refine ⟨t0_0, flush0_3 t0_0, ?_⟩
  rw [mem_block]
  intro a
  match a with
  | ⟨0, _⟩ =>
    show win0_3.index t0_0 (0 : Fin 2) * 10 ≤ (i 0).val ∧ (i 0).val < win0_3.index t0_0 (0 : Fin 2) * 10 + 10
    rw [h0]; omega
  | ⟨1, _⟩ =>
    show win0_3.index t0_0 (1 : Fin 2) * 125000 ≤ (i 1).val
      ∧ (i 1).val < win0_3.index t0_0 (1 : Fin 2) * 125000 + 125000
    rw [h1]; omega

/-- After the region the output array is the feature table. -/
theorem final_table (c : Dev nD) : (dat0 (F := Ideal) V c).arrAt 3 cfg0.N = featArr V c :=
  (dat0 (F := Ideal) V c).arrAt_eq_of_cover 3 (featArr V c) (fun t _ => flushed_eq V c t) covered

end Blocks

theorem node_array (c : Dev nD) (k : Fin 10) (n : Fin 125000) :
    (dat0 (F := Ideal) V c).arrAt 3 cfg0.N (ix2 k n)
      = act (fun q => V c main_arg2 (ix2 k q)) (fun q => V c main_v0 (ix2 q n)) (V c main_v1 (ix2 k 0)) := by
  rw [Blocks.final_table V c]
  rfl

end Cert.KernelIdeal.NodeValue

end
-- ==== Proof.EdgePayload.lean ====
/-
  The second kernel's arithmetic at one column r of a block of 32000 edges: the score of the edge whose endpoint
  features are column r of the two loaded feature blocks.
-/
import proofs.«123196_j22153441312926_1_alg».proof.Proof.Gen.KernelIdeal.Skeleton
import proofs.«123196_j22153441312926_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.ValueIdx Cert.EdgeSpec

/-- The sum over the ten rows of a [10, 32000] block, read at column r. -/
theorem lane_sum (v : FVec Ideal S10x32000 .f32) (hφ : FKind.Formats .f32)
    (hacc : (0x00000000#32 : BitVec 32) = FKind.add.neutral .f32 hφ) (r : Fin 32000) :
    multiReduction (F := Ideal) .add [0] S32000 v 0x00000000#32 reduces_S10x32000_S32000 hφ hacc (ix1 r)
      = ∑ k : Fin 10, v (ix2 k r) := by
  refine (Ideal.multiReduction_add_single v _ reduces_S10x32000_S32000 hφ hacc (ix1 r)).trans ?_
  refine Finset.sum_congr rfl fun k _ => congrArg v ?_
  funext a
  match a with
  | ⟨0, _⟩ => rfl
  | ⟨1, _⟩ => rfl

/-- The left operand's row coordinate is the output's row. -/
theorem lhs_row_0 (i : S1x32000.Idx) (q : dot_S1x10_S10x32000_S1x32000_1_0_0_1_n_n.contr.Idx) :
    (dot_S1x10_S10x32000_S1x32000_1_0_0_1_n_n.lhsIdx i q 0).val = (i 0).val := by
  unfold DotDims.lhsIdx
  rw [dif_neg (show ¬(0 : Fin S1x10.rank) ∈ dot_S1x10_S10x32000_S1x32000_1_0_0_1_n_n.lhsBatch by decide),
    dif_pos (show (0 : Fin S1x10.rank) ∈ dot_S1x10_S10x32000_S1x32000_1_0_0_1_n_n.lhsNonContracting by decide)]
  rfl
/-- The left operand's column coordinate is the contraction coordinate. -/
theorem lhs_row_1 (i : S1x32000.Idx) (q : dot_S1x10_S10x32000_S1x32000_1_0_0_1_n_n.contr.Idx) :
    (dot_S1x10_S10x32000_S1x32000_1_0_0_1_n_n.lhsIdx i q 1).val = (q ⟨0, by decide⟩).val :=
  dot_S1x10_S10x32000_S1x32000_1_0_0_1_n_n.lhsIdx_val_of_single rfl i q
/-- The right operand's row coordinate is the contraction coordinate. -/
theorem rhs_col_0 (i : S1x32000.Idx) (q : dot_S1x10_S10x32000_S1x32000_1_0_0_1_n_n.contr.Idx) :
    (dot_S1x10_S10x32000_S1x32000_1_0_0_1_n_n.rhsIdx i q 0).val = (q ⟨0, by decide⟩).val :=
  dot_S1x10_S10x32000_S1x32000_1_0_0_1_n_n.rhsIdx_val_of_single rfl i q
/-- The right operand's column coordinate is the output's column. -/
theorem rhs_col_1 (i : S1x32000.Idx) (q : dot_S1x10_S10x32000_S1x32000_1_0_0_1_n_n.contr.Idx) :
    (dot_S1x10_S10x32000_S1x32000_1_0_0_1_n_n.rhsIdx i q 1).val = (i 1).val := by
  unfold DotDims.rhsIdx
  rw [dif_neg (show ¬(1 : Fin S10x32000.rank) ∈ dot_S1x10_S10x32000_S1x32000_1_0_0_1_n_n.rhsBatch by decide),
    dif_pos (show (1 : Fin S10x32000.rank) ∈ dot_S1x10_S10x32000_S1x32000_1_0_0_1_n_n.rhsNonContracting by decide)]
  rfl

/-- A row [1, 10] times a block [10, 32000] into the zero accumulator, read at column r: the sum over the ten
    features of the weight times the feature of that column. -/
theorem row_dot {φ₁ φ₂ : FTy} (w : FVec Ideal S1x10 φ₁) (y : FVec Ideal S10x32000 φ₂) (z : Fin 1) (r : Fin 32000) :
    matmul (F := Ideal) dot_S1x10_S10x32000_S1x32000_1_0_0_1_n_n none w y
        (constant (F := Ideal) S1x32000 .f32 0x00000000#32) (ix2 z r)
      = ∑ k : Fin 10, w (ix2 0 k) * y (ix2 k r) := by
  simp only [matmul]
  rw [Ideal.matmul_constant_zero_apply,
    ← Equiv.sum_comp (contrEquiv1 dot_S1x10_S10x32000_S1x32000_1_0_0_1_n_n 10 rfl rfl).symm]
  refine Finset.sum_congr rfl fun k _ => ?_
  have hk := contrEquiv1_symm_val dot_S1x10_S10x32000_S1x32000_1_0_0_1_n_n 10 rfl rfl k
  have el : dot_S1x10_S10x32000_S1x32000_1_0_0_1_n_n.lhsIdx (ix2 z r)
      ((contrEquiv1 dot_S1x10_S10x32000_S1x32000_1_0_0_1_n_n 10 rfl rfl).symm k) = ix2 0 k :=
    funext fun a => Fin.ext (by
      match a with
      | ⟨0, _⟩ => exact (lhs_row_0 _ _).trans (by show z.val = 0; omega)
      | ⟨1, _⟩ => exact (lhs_row_1 _ _).trans hk)
  have er : dot_S1x10_S10x32000_S1x32000_1_0_0_1_n_n.rhsIdx (ix2 z r)
      ((contrEquiv1 dot_S1x10_S10x32000_S1x32000_1_0_0_1_n_n 10 rfl rfl).symm k) = ix2 k r :=
    funext fun a => Fin.ext (by
      match a with
      | ⟨0, _⟩ => exact (rhs_col_0 _ _).trans hk
      | ⟨1, _⟩ => exact rhs_col_1 _ _)
  rw [el, er]

/-- The one-bit comparison result, widened to 32 bits and converted as a signed integer, is the bit as a number. -/
theorem bit_value (b : BitVec 1) :
    (FloatOps.sitofp (F := Ideal) .f32 (b.setWidth 32) : EReal) = ((b.toNat : ℝ) : EReal) := by
  show (((b.setWidth 32).toInt : ℝ) : EReal) = _
  exact congrArg _ (widen_signed b)

/-- A square root at an index is the square root of the element. -/
theorem sqrt_at {s : Shape} {φ : FTy} (a : FVec Ideal s φ) (i : s.Idx) : sqrt a i = Ideal.sqrt (a i) := rfl

/-- A [32000] vector viewed as one row [1, 32000], read at (z, r), is the vector at r. -/
theorem row_view (m : FVec Ideal S32000 .f32) (z : Fin 1) (r : Fin 32000) :
    shapeCast S1x32000 m shapeCasts_S32000_S1x32000 (ix2 z r) = m (ix1 r) :=
  shapeCast_apply m shapeCasts_S32000_S1x32000 (ix2 z r) (ix1 r) (by
    rewrite [Shape.rowMajor_val_two, Shape.rowMajor_val_one]
    show r.val = z.val * 32000 + r.val
    omega)

/-- The Euclidean distance of the two feature columns at r: the square root, read at (z, r), of the lane sum of the
    squared differences viewed as one row. -/
theorem dist_col (x0 x1 : FVec Ideal S10x32000 .f32) (hφ : FKind.Formats .f32)
    (hacc : (0x00000000#32 : BitVec 32) = FKind.add.neutral .f32 hφ) (z : Fin 1) (r : Fin 32000) :
    sqrt (shapeCast S1x32000
        (multiReduction (F := Ideal) .add [0] S32000 (mulf (subf x0 x1) (subf x0 x1)) 0x00000000#32
          reduces_S10x32000_S32000 hφ hacc) shapeCasts_S32000_S1x32000) (ix2 z r)
      = Ideal.sqrt (sqdist (fun k => x0 (ix2 k r)) (fun k => x1 (ix2 k r))) := by
  rw [sqrt_at, row_view, lane_sum]
  rfl

/-- The bias, a [1, 1] block spread along the row, read at (z, r). -/
theorem bias_col (x4 : FVec Ideal S1x1 .f32) (z : Fin 1) (r : Fin 32000) :
    broadcastTo S1x32000 x4 broadcasts_S1x1_S1x32000 (ix2 z r) = x4 (ix2 0 0) :=
  broadcastTo_apply x4 broadcasts_S1x1_S1x32000 (ix2 z r) (ix2 0 0) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl])

/-- The body's value at column r, with the two side facts of the lane sum left as hypotheses. -/
theorem payload_col (x0 x1 : FVec Ideal S10x32000 .f32) (x2 x3 : FVec Ideal S1x10 .f32) (x4 : FVec Ideal S1x1 .f32)
    (hφ : FKind.Formats .f32) (hacc : (0x00000000#32 : BitVec 32) = FKind.add.neutral .f32 hφ)
    (z : Fin 1) (r : Fin 32000) :
    mulf
        (addf
          (addf
            (matmul (F := Ideal) dot_S1x10_S10x32000_S1x32000_1_0_0_1_n_n none (truncf .bf16 x2 bitsLt_bf16_f32)
              (truncf .bf16 x0 bitsLt_bf16_f32) (constant (F := Ideal) S1x32000 .f32 0x00000000#32))
            (matmul (F := Ideal) dot_S1x10_S10x32000_S1x32000_1_0_0_1_n_n none (truncf .bf16 x3 bitsLt_bf16_f32)
              (truncf .bf16 x1 bitsLt_bf16_f32) (constant (F := Ideal) S1x32000 .f32 0x00000000#32)))
          (broadcastTo S1x32000 x4 broadcasts_S1x1_S1x32000))
        (sitofp .f32
          (extui 32
            (cmpf .olt
              (sqrt
                (shapeCast S1x32000
                  (multiReduction (F := Ideal) .add [0] S32000 (mulf (subf x0 x1) (subf x0 x1)) 0x00000000#32
                    reduces_S10x32000_S32000 hφ hacc)
                  shapeCasts_S32000_S1x32000))
              (broadcast S1x32000 (FloatOps.ofBits (F := Ideal) .f32 0x3F000000#32)))
            natLt_1_32))
        (ix2 z r)
      = edge (fun k => x0 (ix2 k r)) (fun k => x1 (ix2 k r)) (fun k => x2 (ix2 0 k)) (fun k => x3 (ix2 0 k))
          (x4 (ix2 0 0)) := by
  rw [mulf_apply, addf_apply, addf_apply, row_dot, row_dot, sitofp_apply, extui_apply, cmpf_apply, broadcast_apply,
    dist_col, bias_col, bit_value, Ideal.cmpf_def]
  simp only [truncf_apply]
  rfl

theorem edge_payload (x0 x1 : Vec Ideal S10x32000 .f32) (x2 x3 : Vec Ideal S1x10 .f32) (x4 : Vec Ideal S1x1 .f32)
    (z : Fin 1) (r : Fin 32000) :
    k1_pay1 (F := Ideal) x0 x1 x2 x3 x4 (ix2 z r)
      = edge (fun k => x0 (ix2 k r)) (fun k => x1 (ix2 k r)) (fun k => x2 (ix2 0 k)) (fun k => x3 (ix2 0 k))
          (x4 (ix2 0 0)) := by
  unfold k1_pay1
  simp only [shapeCast_self]
  exact payload_col x0 x1 x2 x3 x4 _ _ z r

end Cert.KernelIdeal.EdgeValue

end
-- ==== Proof.EdgeBlocks.lean ====
/-
  The second region walks 125 blocks of 32000 edges. Block t of the output row is the body's arithmetic of block t
  of the two gathered feature arrays and of the three small arrays, and the 125 blocks tile the row, so after the
  region entry (0, e) of the output is the score of edge e.
-/
import proofs.«123196_j22153441312926_1_alg».proof.Proof.Gen.KernelIdeal.Frame
import proofs.«123196_j22153441312926_1_alg».proof.Proof.EdgePayload

set_option maxRecDepth 16384

noncomputable section

namespace Cert.KernelIdeal.EdgeValue

open Cert.KernelIdeal Cert.KernelIdeal.Gen Idealize.ShloMosaic Idealize.ShloMosaic.TcCoe Idealize.ShloMosaic.ValueIdx Cert.EdgeSpec
open Idealize.SL.Sem

variable (V : (c : Dev nD) → (b : Ref sig .tc) → Buf (Elt Ideal) ((c : Thread nD τ).loc b))

namespace Blocks

/-- The offsets of a whole-buffer access, however the zeros are spelt. -/
theorem zero_offsets : (![0, 0] : Fin 2 → Nat) = fun _ => 0 := funext fun a => by fin_cases a <;> rfl

/-- The score of edge e from column e of the two gathered feature arrays and the three small arrays, as the
    region finds them. -/
def rowScore (c : Dev nD) (e : Fin 4000000) : EReal :=
  edge (fun k => V c main_v13 (ix2 k e)) (fun k => V c main_v20 (ix2 k e)) (fun k => V c main_v21 (ix2 0 k))
    (fun k => V c main_v22 (ix2 0 k)) (V c main_v23 (ix2 0 0))

/-- The whole output row: entry (0, e) is the score of edge e. -/
def scoreArr (c : Dev nD) : S1x4000000.Idx → EReal := fun i => rowScore V c (i 1)

/-- Where each window's block sits at grid point t, decided over the 125 points: the two feature windows and the
    output move along the edge axis with the point, the three small windows stay at the origin. -/
theorem block_index : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

/-- Element (k, r) of block t of the source-feature window is element (k, 32000 t + r) of its array. -/
theorem srcBlock_apply (c : Dev nD) (t : Fin cfg1.N) (k : Fin 10) (r : Fin 32000) (e : Fin 4000000)
    (he : e.val = 32000 * t.val + r.val) :
    (iblk1 V c 0 t : Vec Ideal S10x32000 .f32) (ix2 k r) = V c main_v13 (ix2 k e) := by
  obtain ⟨h0, h1, -⟩ := block_index t
  unfold iblk1
  rw [View.read_apply]
  show V c main_v13 _ = V c main_v13 _
  congr 1
  funext a
  apply Fin.ext
  match a with
  | ⟨0, _⟩ => show win1_0.index t (0 : Fin 2) * 10 + 1 * k.val = k.val; rw [h0]; omega
  | ⟨1, _⟩ => show win1_0.index t (1 : Fin 2) * 32000 + 1 * r.val = e.val; rw [h1, he]; omega

/-- Element (k, r) of block t of the destination-feature window is element (k, 32000 t + r) of its array. -/
theorem dstBlock_apply (c : Dev nD) (t : Fin cfg1.N) (k : Fin 10) (r : Fin 32000) (e : Fin 4000000)
    (he : e.val = 32000 * t.val + r.val) :
    (iblk1 V c 1 t : Vec Ideal S10x32000 .f32) (ix2 k r) = V c main_v20 (ix2 k e) := by
  obtain ⟨-, -, h0, h1, -⟩ := block_index t
  unfold iblk1
  rw [View.read_apply]
  show V c main_v20 _ = V c main_v20 _
  congr 1
  funext a
  apply Fin.ext
  match a with
  | ⟨0, _⟩ => show win1_1.index t (0 : Fin 2) * 10 + 1 * k.val = k.val; rw [h0]; omega
  | ⟨1, _⟩ => show win1_1.index t (1 : Fin 2) * 32000 + 1 * r.val = e.val; rw [h1, he]; omega

/-- The window of the first weight half is its whole array at every point. -/
theorem srcWeights_apply (c : Dev nD) (t : Fin cfg1.N) (k : Fin 10) :
    (iblk1 V c 2 t : Vec Ideal S1x10 .f32) (ix2 0 k) = V c main_v21 (ix2 0 k) := by
  obtain ⟨-, -, -, -, h0, h1, -⟩ := block_index t
  unfold iblk1
  rw [View.read_apply]
  show V c main_v21 _ = V c main_v21 _
  congr 1
  funext a
  apply Fin.ext
  match a with
  | ⟨0, _⟩ => show win1_2.index t (0 : Fin 2) * 1 + 1 * 0 = 0; rw [h0]
  | ⟨1, _⟩ => show win1_2.index t (1 : Fin 2) * 10 + 1 * k.val = k.val; rw [h1]; omega

/-- The window of the second weight half is its whole array at every point. -/
theorem dstWeights_apply (c : Dev nD) (t : Fin cfg1.N) (k : Fin 10) :
    (iblk1 V c 3 t : Vec Ideal S1x10 .f32) (ix2 0 k) = V c main_v22 (ix2 0 k) := by
  obtain ⟨-, -, -, -, -, -, h0, h1, -⟩ := block_index t
  unfold iblk1
  rw [View.read_apply]
  show V c main_v22 _ = V c main_v22 _
  congr 1
  funext a
  apply Fin.ext
  match a with
  | ⟨0, _⟩ => show win1_3.index t (0 : Fin 2) * 1 + 1 * 0 = 0; rw [h0]
  | ⟨1, _⟩ => show win1_3.index t (1 : Fin 2) * 10 + 1 * k.val = k.val; rw [h1]; omega

/-- The window of the bias is its one-element array at every point. -/
theorem bias_apply (c : Dev nD) (t : Fin cfg1.N) :
    (iblk1 V c 4 t : Vec Ideal S1x1 .f32) (ix2 0 0) = V c main_v23 (ix2 0 0) := by
  obtain ⟨-, -, -, -, -, -, -, -, h0, h1, -⟩ := block_index t
  unfold iblk1
  rw [View.read_apply]
  show V c main_v23 _ = V c main_v23 _
  congr 1
  funext a
  apply Fin.ext
  match a with
  | ⟨0, _⟩ => show win1_4.index t (0 : Fin 2) * 1 + 1 * 0 = 0; rw [h0]
  | ⟨1, _⟩ => show win1_4.index t (1 : Fin 2) * 1 + 1 * 0 = 0; rw [h1]

/-- What the body leaves in the output buffer at point t, column r: the score of edge 32000 t + r. -/
theorem outBlock_apply (c : Dev nD) (t : Fin cfg1.N) (z : Fin 1) (r : Fin 32000) (e : Fin 4000000)
    (he : e.val = 32000 * t.val + r.val) :
    out1_5 (F := Ideal) (iblk1 V c 0 t) (iblk1 V c 1 t) (iblk1 V c 2 t) (iblk1 V c 3 t) (iblk1 V c 4 t) (ix2 z r)
      = rowScore V c e := by
  unfold out1_5
  rw [View.canon_unit_zero zero_offsets]
  simp only [View.ld_unit_zero (S := S10x32000) zero_offsets, View.ld_unit_zero (S := S1x10) zero_offsets,
    View.ld_unit_zero (S := S1x1) zero_offsets]
  rw [edge_payload]
  unfold rowScore
  simp only [srcBlock_apply V c t _ r e he, dstBlock_apply V c t _ r e he, srcWeights_apply V c t, dstWeights_apply V c t,
    bias_apply V c t]

/-- What point t writes back is block t of the whole score row. -/
theorem flushed_eq (c : Dev nD) (t : Fin cfg1.N) :
    (dat1 (F := Ideal) V c).flushed 5 t = ((cfg1.win 5).blk t).view.read (Elt Ideal) (scoreArr V c) := by
  show (cfg1.win 5).cut (grid1.coords t) ((dat1 V c).after 5 t) = _
  rw [after1_5]
  obtain ⟨-, -, -, -, -, -, -, -, -, -, h0, h1⟩ := block_index t
  funext j
  rw [View.read_apply]
  obtain ⟨z, r, rfl⟩ : ∃ (z : Fin 1) (r : Fin 32000), j = ix2 z r := ⟨j 0, j 1, eq_ix2 j⟩
  have hr : r.val < 32000 := r.isLt
  have ht : t.val < 125 := by have h := t.isLt; have hN : cfg1.N = 125 := N_1; omega
  show out1_5 (F := Ideal) (iblk1 V c 0 t) (iblk1 V c 1 t) (iblk1 V c 2 t) (iblk1 V c 3 t) (iblk1 V c 4 t) (ix2 z r)
    = scoreArr V c (((cfg1.win 5).blk t).view.emb (ix2 z r))
  rw [outBlock_apply V c t z r ⟨32000 * t.val + r.val, by omega⟩ rfl]
  unfold scoreArr
  congr 1
  apply Fin.ext
  show 32000 * t.val + r.val = win1_5.index t (1 : Fin 2) * 32000 + 1 * r.val
  rw [h1]; omega

/-- An index of the output row is in point t's block iff each coordinate is in the block's range on its axis. -/
theorem mem_block (t : Fin cfg1.N) (i : S1x4000000.Idx) :
    i ∈ ((cfg1.win 5).blk t).view.set ↔ ∀ a : Fin 2, win1_5.index t a * S1x32000.size a ≤ (i a).val
      ∧ (i a).val < win1_5.index t a * S1x32000.size a + S1x32000.size a := by
  show i ∈ ((View.whole main_v24).slice (win1_5.rect t)).set ↔ _
  rw [View.set_slice_whole, Rect.mem_set_unit]
  exact Iff.rfl

/-- The 125 blocks tile the row: column e lies in block e / 32000. -/
theorem covered (i : S1x4000000.Idx) :
    ∃ t : Fin cfg1.N, (cfg1.win 5).flush t = true ∧ i ∈ ((cfg1.win 5).blk t).view.set := by
  have hi0 : (i 0).val < 1 := (i 0).isLt
  have hi1 : (i 1).val < 4000000 := (i 1).isLt
  have hN : cfg1.N = 125 := N_1
  let t : Fin cfg1.N := ⟨(i 1).val / 32000, by rw [hN]; omega⟩
  obtain ⟨-, -, -, -, -, -, -, -, -, -, h0, h1⟩ := block_index t
  have ht : t.val = (i 1).val / 32000 := rfl
  refine ⟨t, flush1_5 t, ?_⟩
  rw [mem_block]
  intro a
  match a with
  | ⟨0, _⟩ =>
    show win1_5.index t (0 : Fin 2) * 1 ≤ (i 0).val ∧ (i 0).val < win1_5.index t (0 : Fin 2) * 1 + 1
    rw [h0]; omega
  | ⟨1, _⟩ =>
    show win1_5.index t (1 : Fin 2) * 32000 ≤ (i 1).val ∧ (i 1).val < win1_5.index t (1 : Fin 2) * 32000 + 32000
    rw [h1, ht]; omega

/-- After the region the output row is the score row. -/
theorem final_row (c : Dev nD) : (dat1 (F := Ideal) V c).arrAt 5 cfg1.N = scoreArr V c :=
  (dat1 (F := Ideal) V c).arrAt_eq_of_cover 5 (scoreArr V c) (fun t _ => flushed_eq V c t) covered

end Blocks

theorem edge_array (c : Dev nD) (z : Fin 1) (e : Fin 4000000) :
    (dat1 (F := Ideal) V c).arrAt 5 cfg1.N (ix2 z e)
      = edge (fun k => V c main_v13 (ix2 k e)) (fun k => V c main_v20 (ix2 k e)) (fun k => V c main_v21 (ix2 0 k))
          (fun k => V c main_v22 (ix2 0 k)) (V c main_v23 (ix2 0 0)) := by
  rw [Blocks.final_row V c]
  rfl

end Cert.KernelIdeal.EdgeValue

end
-- ==== Proof.LibColGather.lean ====
/-
  THE INDEXED READ OF WHOLE COLUMNS OF A TABLE, READ AT ONE ELEMENT.

  A table [A, N] read along its second axis by an index array held as [E, 1] (offset_dims [0], collapsed_slice_dims
  [1], start_index_map [1], index vector on axis 1, slice_sizes [A, 1]): the result is [A, E], and its entry (a, e)
  is the table's entry (a, i), where i is the index word idx[e, 0] read signed and clamped into [0, N - 1].
  Generic in the extents and in the width of the index words.
-/
import Idealize.ShloMosaic.PureOps.Ideal
import Idealize.ShloMosaic.Lib.ValueIdx

noncomputable section

namespace Cert.LibColGather

open Idealize.ShloMosaic Idealize.ShloMosaic.ValueIdx

/-- The dimension numbers of the read of whole columns of a table [A, N]: start indices [E, 1], result [A, E]. -/
abbrev colsGatherDims (A N E : Nat)
    (wf : GatherDims.WF ⟨2, ![A, N]⟩ ⟨2, ![E, 1]⟩ ⟨2, ![A, E]⟩ [0] [1] [] [1] [] 1 ![A, 1]) :
    GatherDims ⟨2, ![A, N]⟩ ⟨2, ![E, 1]⟩ ⟨2, ![A, E]⟩ where
  offsetDims := [0]
  collapsedSliceDims := [1]
  operandBatchingDims := []
  startIndicesBatchingDims := []
  startIndexMap := [1]
  indexVectorDim := 1
  sliceSizes := ![A, 1]
  wf := wf

section Coordinates

variable {A N E w : Nat} (wf : GatherDims.WF ⟨2, ![A, N]⟩ ⟨2, ![E, 1]⟩ ⟨2, ![A, E]⟩ [0] [1] [] [1] [] 1 ![A, 1])

/-- The row axis of the table is not start-indexed: every slice starts at row 0. -/
theorem cols_start0 (j : (⟨2, ![A, E]⟩ : Shape).Idx) (idx : IVec ⟨2, ![E, 1]⟩ w) :
    (colsGatherDims A N E wf).start j idx 0 = 0 := by
  unfold GatherDims.start
  rw [dif_neg (show (0 : Fin 2) ∉ (colsGatherDims A N E wf).startIndexMap from
    (by decide : (0 : Fin 2) ∉ ([1] : List (Fin 2))))]

/-- The row axis is the one kept axis, read by the result's one offset axis: the result's own row coordinate. -/
theorem cols_off0 (j : (⟨2, ![A, E]⟩ : Shape).Idx) : (colsGatherDims A N E wf).offCoord j 0 = (j 0).val := by
  unfold GatherDims.offCoord
  rw [dif_pos (show (0 : Fin 2) ∈ (colsGatherDims A N E wf).sKept by
    simp [GatherDims.sKept, Shape.kept, List.mem_filter])]
  rfl

/-- The column axis is start-indexed: the slice of result column e starts at the word idx[e, 0], read signed and
    clamped into the table (the slice is one column wide). -/
theorem cols_start1 (j : (⟨2, ![A, E]⟩ : Shape).Idx) (idx : IVec ⟨2, ![E, 1]⟩ w) :
    (colsGatherDims A N E wf).start j idx 1 = min (idx (ix2 (j 1) ⟨0, Nat.one_pos⟩)).toInt.toNat (N - 1) := by
  unfold GatherDims.start
  rw [dif_pos (show (1 : Fin 2) ∈ (colsGatherDims A N E wf).startIndexMap from List.mem_singleton.mpr rfl)]
  have hsi : (colsGatherDims A N E wf).siIdx j ⟨List.idxOf (1 : Fin 2) (colsGatherDims A N E wf).startIndexMap,
      List.idxOf_lt_length_iff.2 (List.mem_singleton.mpr rfl)⟩ = ix2 (j 1) ⟨0, Nat.one_pos⟩ := by
    funext c; refine Fin.ext ?_
    match c with
    | ⟨0, _⟩ => rfl
    | ⟨1, _⟩ => rfl
  rw [hsi]
  rfl

/-- The column axis is collapsed: no offset coordinate on it. -/
theorem cols_off1 (j : (⟨2, ![A, E]⟩ : Shape).Idx) : (colsGatherDims A N E wf).offCoord j 1 = 0 :=
  GatherDims.offCoord_eq_zero _ _ _ (fun h => ((GatherDims.mem_sKept _ _).mp h).1 (List.mem_singleton.mpr rfl))

end Coordinates

/-- Entry (a, e) of the read is the table's entry (a, i) at the clamped index i. -/
theorem colsGather_apply_of {α : Type} {A N E w : Nat} (hN : 0 < N)
    {wf : GatherDims.WF ⟨2, ![A, N]⟩ ⟨2, ![E, 1]⟩ ⟨2, ![A, E]⟩ [0] [1] [] [1] [] 1 ![A, 1]}
    (d : GatherDims ⟨2, ![A, N]⟩ ⟨2, ![E, 1]⟩ ⟨2, ![A, E]⟩) (hd : d = colsGatherDims A N E wf)
    (x : (⟨2, ![A, N]⟩ : Shape).Idx → α) (idx : IVec ⟨2, ![E, 1]⟩ w) (a : Fin A) (e : Fin E) :
    Host.gather d x idx (ix2 a e) =
      x (ix2 a ⟨min (idx (ix2 e ⟨0, Nat.one_pos⟩)).toInt.toNat (N - 1), by omega⟩) := by
  subst hd
  unfold Host.gather
  congr 1
  funext c
  refine Fin.ext ?_
  match c with
  | ⟨0, _⟩ =>
    -- the row axis: an offset axis, the result's own row coordinate
    show (colsGatherDims A N E wf).start (ix2 a e) idx 0 + (colsGatherDims A N E wf).batchCoord (ix2 a e) 0
      + (colsGatherDims A N E wf).offCoord (ix2 a e) 0 = a.val
    rw [cols_start0, cols_off0, GatherDims.batchCoord_eq_zero _ _ _ List.not_mem_nil]
    show 0 + 0 + a.val = a.val
    omega
  | ⟨1, _⟩ =>
    -- the column axis: collapsed and start-indexed, the clamped start alone
    show (colsGatherDims A N E wf).start (ix2 a e) idx 1 + (colsGatherDims A N E wf).batchCoord (ix2 a e) 1
      + (colsGatherDims A N E wf).offCoord (ix2 a e) 1 = min (idx (ix2 e ⟨0, Nat.one_pos⟩)).toInt.toNat (N - 1)
    rw [cols_start1, cols_off1, GatherDims.batchCoord_eq_zero _ _ _ List.not_mem_nil]
    rfl

/-- The same for a record given field by field (a program's own): its seven fields are the column read's. -/
theorem colsGather_apply {α : Type} {A N E w : Nat} (hN : 0 < N)
    (d : GatherDims ⟨2, ![A, N]⟩ ⟨2, ![E, 1]⟩ ⟨2, ![A, E]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![A, 1])
    (x : (⟨2, ![A, N]⟩ : Shape).Idx → α) (idx : IVec ⟨2, ![E, 1]⟩ w) (a : Fin A) (e : Fin E) :
    Host.gather d x idx (ix2 a e) =
      x (ix2 a ⟨min (idx (ix2 e ⟨0, Nat.one_pos⟩)).toInt.toNat (N - 1), by omega⟩) := by
  obtain ⟨o, c, ob, sb, sm, iv, ss, wf⟩ := d
  simp only at h1 h2 h3 h4 h5 h6 h7
  subst h1 h2 h3 h4 h5 h6 h7
  exact colsGather_apply_of hN _ rfl x idx a e

end Cert.LibColGather

end
-- ==== Proof.KernelValue.lean ====
/-
  The kernel program's result buffer, read at one edge, as a function of the arguments.

  The result is the transpose of the second region's output row. That row's entry (0, e) is the score of edge e
  computed from column e of the two gathered feature arrays (the second region, block by block), and a gathered
  column is the column of the feature table that the edge's index word names, read signed and clamped; the
  feature table is what the first region leaves: the logistic function of the affine form of the node's three
  coordinates. The host operations between the regions are read off the buffer contents at each boundary.
-/
import proofs.«123196_j22153441312926_1_alg».proof.Proof.Gen.KernelIdeal.Frame
import proofs.«123196_j22153441312926_1_alg».proof.Proof.Spec
import proofs.«123196_j22153441312926_1_alg».proof.Proof.NodeBlocks
import proofs.«123196_j22153441312926_1_alg».proof.Proof.EdgeBlocks
import proofs.«123196_j22153441312926_1_alg».proof.Proof.LibColGather
import Idealize.ShloMosaic.Lib.ValueLayout
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.ValueIdx Cert.EdgeSpec
open Idealize.SL.Sem Idealize.ShloMosaic.StableHlo

variable (m : (ℓ : Loc nD τ sig) → Buf (Elt Ideal) ℓ) (ρ : Dev nD → PrngReg)

/-! ## The launch contents of an argument survive the first region and the host operations around it -/

theorem W1_of_arg (c : Dev nD) (b : Ref sig .tc)
    (h : StableHlo.after (hostOps0 (F := Ideal)) (W0 m ρ c) (Proc.devRef .tc b) = W0 m ρ c (Proc.devRef .tc b)) :
    W1 m ρ c (Proc.devRef .tc b) = m ((c : Thread nD τ).loc b) := h

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## The first region's entry contents -/

theorem V1_arg2 (c : Dev nD) : V1 m ρ c main_arg2 = m ((c : Thread nD τ).loc main_arg2) := by
  show StableHlo.after hostOps0 (W0 m ρ c) (Proc.devRef .tc main_arg2) = _
  after_results
theorem V1_v0 (c : Dev nD) : V1 m ρ c main_v0
    = transpose S3x125000 [1, 0] (m ((c : Thread nD τ).loc main_arg0)) transposes_S125000x3_S3x125000_1_0 := by
  show StableHlo.after hostOps0 (W0 m ρ c) (Proc.devRef .tc main_v0) = _
  after_results
theorem V1_v1 (c : Dev nD) : V1 m ρ c main_v1
    = shapeCast S10x1 (m ((c : Thread nD τ).loc main_arg3)) shapeCasts_S10_S10x1 := by
  show StableHlo.after hostOps0 (W0 m ρ c) (Proc.devRef .tc main_v1) = _
  after_results
  rfl

/-! ## The second region's entry contents -/

set_option maxHeartbeats 4000000 in
theorem V3_v13 (c : Dev nD) : V3 m ρ c main_v13
    = Host.gather gather_S10x125000_S4000000x1_S10x4000000_0_1_n_n_1_1_101 (W2 m ρ c (Proc.devRef .tc main_v2)) (V3 m ρ c main_v12) := by
  have e12 : V3 m ρ c main_v12 = StableHlo.after hostOps1 (W2 m ρ c) (Proc.devRef .tc main_v12) := rfl
  have e13 : V3 m ρ c main_v13 = StableHlo.after hostOps1 (W2 m ρ c) (Proc.devRef .tc main_v13) := rfl
  rw [e12, e13]
  after_results
set_option maxHeartbeats 4000000 in
theorem V3_v20 (c : Dev nD) : V3 m ρ c main_v20
    = Host.gather gather_S10x125000_S4000000x1_S10x4000000_0_1_n_n_1_1_101 (W2 m ρ c (Proc.devRef .tc main_v2)) (V3 m ρ c main_v19) := by
  have e19 : V3 m ρ c main_v19 = StableHlo.after hostOps1 (W2 m ρ c) (Proc.devRef .tc main_v19) := rfl
  have e20 : V3 m ρ c main_v20 = StableHlo.after hostOps1 (W2 m ρ c) (Proc.devRef .tc main_v20) := rfl
  rw [e19, e20]
  after_results
theorem V3_v21 (c : Dev nD) : V3 m ρ c main_v21
    = extractStridedSlice S1x10 ![0, 0] (m ((c : Thread nD τ).loc main_arg6)) slices_S1x20_S1x10_0_0 := by
  rw [← W2_arg6 m ρ c]
  show StableHlo.after hostOps1 (W2 m ρ c) (Proc.devRef .tc main_v21) = _
  after_results
theorem V3_v22 (c : Dev nD) : V3 m ρ c main_v22
    = extractStridedSlice S1x10 ![0, 10] (m ((c : Thread nD τ).loc main_arg6)) slices_S1x20_S1x10_0_10 := by
  rw [← W2_arg6 m ρ c]
  show StableHlo.after hostOps1 (W2 m ρ c) (Proc.devRef .tc main_v22) = _
  after_results
theorem V3_v23 (c : Dev nD) : V3 m ρ c main_v23
    = shapeCast S1x1 (m ((c : Thread nD τ).loc main_arg7)) shapeCasts_S1_S1x1 := by
  rw [← W2_arg7 m ρ c]
  show StableHlo.after hostOps1 (W2 m ρ c) (Proc.devRef .tc main_v23) = _
  after_results
  rfl

/-! ## The result buffer -/

theorem result_eq (c : Dev nD) :
    W5 m ρ c (Proc.devRef .tc main_v25)
      = transpose S4000000x1 [1, 0] (W4 m ρ c (Proc.devRef .tc main_v24)) transposes_S1x4000000_S4000000x1_1_0 := by
  show StableHlo.after hostOps2 (W4 m ρ c) (Proc.devRef .tc main_v25) = _
  after_results

/-! ## Small layout reads -/

theorem col_read (b : S10.Idx → EReal) (k : Fin 10) :
    shapeCast S10x1 b shapeCasts_S10_S10x1 (ix2 k 0) = b (ix1 k) :=
  shapeCast_apply b shapeCasts_S10_S10x1 (ix2 k 0) (ix1 k) (by
    rw [Shape.rowMajor_val_one, Shape.rowMajor_val_two]
    show k.val = k.val * 1 + 0
    omega)

theorem one_read (b : S1.Idx → EReal) :
    shapeCast S1x1 b shapeCasts_S1_S1x1 (ix2 0 0) = b (ix1 0) :=
  shapeCast_apply b shapeCasts_S1_S1x1 (ix2 0 0) (ix1 0) (by
    rw [Shape.rowMajor_val_one, Shape.rowMajor_val_two]
    rfl)

/-! ## The feature table after the first region, and the two gathered arrays -/

theorem table_eq (c : Dev nD) (k : Fin 10) (n : Fin 125000) :
    W2 m ρ c (Proc.devRef .tc main_v2) (ix2 k n)
      = feat (m ((c : Thread nD τ).loc main_arg0)) (m ((c : Thread nD τ).loc main_arg2)) (m ((c : Thread nD τ).loc main_arg3)) n k := by
  have h := W2_arr m ρ c 3
  have h' : W2 m ρ c (Proc.devRef .tc main_v2) = (dat0 (V1 m ρ) c).arrAt 3 cfg0.N := h
  rw [h', NodeValue.node_array, V1_arg2, V1_v0, V1_v1, col_read]
  unfold feat
  refine congrArg (fun f => act _ f _) (funext fun q => ?_)
  exact transpose_ix2_apply _ _ q n

theorem src_feat (c : Dev nD) (k : Fin 10) (e : Fin 4000000) :
    V3 m ρ c main_v13 (ix2 k e)
      = feat (m ((c : Thread nD τ).loc main_arg0)) (m ((c : Thread nD τ).loc main_arg2)) (m ((c : Thread nD τ).loc main_arg3))
          (node (V3 m ρ c main_v12) e) k := by
  rw [V3_v13]
  exact (LibColGather.colsGather_apply_of (by decide) gather_S10x125000_S4000000x1_S10x4000000_0_1_n_n_1_1_101 rfl _ _ k e).trans
    (table_eq m ρ c k _)

theorem dst_feat (c : Dev nD) (k : Fin 10) (e : Fin 4000000) :
    V3 m ρ c main_v20 (ix2 k e)
      = feat (m ((c : Thread nD τ).loc main_arg0)) (m ((c : Thread nD τ).loc main_arg2)) (m ((c : Thread nD τ).loc main_arg3))
          (node (V3 m ρ c main_v19) e) k := by
  rw [V3_v20]
  exact (LibColGather.colsGather_apply_of (by decide) gather_S10x125000_S4000000x1_S10x4000000_0_1_n_n_1_1_101 rfl _ _ k e).trans
    (table_eq m ρ c k _)

/-! ## The result at one edge -/

theorem kernel_value (c : Dev nD) (e : Fin 4000000) :
    W5 m ρ c (Proc.devRef .tc main_v25) (ix2 e 0)
      = score (m ((c : Thread nD τ).loc main_arg0)) (m ((c : Thread nD τ).loc main_arg2)) (m ((c : Thread nD τ).loc main_arg3))
          (m ((c : Thread nD τ).loc main_arg6)) (m ((c : Thread nD τ).loc main_arg7)) (V3 m ρ c main_v12) (V3 m ρ c main_v19) e := by
  rw [result_eq, transpose_ix2_apply]
  have h' : W4 m ρ c (Proc.devRef .tc main_v24) = (dat1 (V3 m ρ) c).arrAt 5 cfg1.N := W4_arr m ρ c 5
  rw [h', EdgeValue.edge_array]
  unfold score
  have h21 : (fun k : Fin 10 => V3 m ρ c main_v21 (ix2 0 k))
      = fun k : Fin 10 => m ((c : Thread nD τ).loc main_arg6) (ix2 0 ⟨k.val, by omega⟩) := funext fun k => by
    rw [V3_v21]
    exact slice2_axis1_apply 0 _ _ 0 k ⟨k.val, by omega⟩ (by simp)
  have h22 : (fun k : Fin 10 => V3 m ρ c main_v22 (ix2 0 k))
      = fun k : Fin 10 => m ((c : Thread nD τ).loc main_arg6) (ix2 0 ⟨k.val + 10, by omega⟩) := funext fun k => by
    rw [V3_v22]
    exact slice2_axis1_apply 10 _ _ 0 k ⟨k.val + 10, by omega⟩ (by show k.val + 10 = 10 + k.val; omega)
  have h23 : V3 m ρ c main_v23 (ix2 0 0) = m ((c : Thread nD τ).loc main_arg7) (ix1 0) := by
    rw [V3_v23]; exact one_read _
  have hs : (fun k : Fin 10 => V3 m ρ c main_v13 (ix2 k e))
      = fun k : Fin 10 => feat (m ((c : Thread nD τ).loc main_arg0)) (m ((c : Thread nD τ).loc main_arg2))
          (m ((c : Thread nD τ).loc main_arg3)) (node (V3 m ρ c main_v12) e) k := funext fun k => src_feat m ρ c k e
  have hd : (fun k : Fin 10 => V3 m ρ c main_v20 (ix2 k e))
      = fun k : Fin 10 => feat (m ((c : Thread nD τ).loc main_arg0)) (m ((c : Thread nD τ).loc main_arg2))
          (m ((c : Thread nD τ).loc main_arg3)) (node (V3 m ρ c main_v19) e) k := funext fun k => dst_feat m ρ c k e
  rw [h21, h22, h23, hs, hd]

end Cert.KernelIdeal.KValue

end
-- ==== Proof.LibScatter.lean ====
/-
  THE HOST'S ACCUMULATING SCATTERS AND INDEXED READS OF A GRAPH PROGRAM, READ AT ONE ELEMENT.

  Four shapes of `stablehlo.scatter` (with an `add` body) and `stablehlo.gather`, each over an index array held as
  `[E, c]` with the index vector on axis 1, generic in the extents and in the width of the index words:

  * `segment_sum(v, idx)` of a vector `v : [E]` into `[N]` (update_window_dims `[]`, inserted_window_dims `[0]`,
    scatter_dims_to_operand_dims `[0]`): element `i` of the result is the operand's plus the sum of the `v[e]` whose
    index, read signed, is `i` (`vecScatterAdd_apply_of`);
  * `A.at[rows, cols].add(v)` of a matrix `A : [N, M]` (inserted_window_dims `[0, 1]`, scatter_dims_to_operand_dims
    `[0, 1]`, the index array `[E, 2]`): entry `(i, j)` is the operand's plus the sum of the `v[e]` whose two index
    words, read signed, are `(i, j)` (`pointScatterAdd_apply_of`);
  * `table[idx]` of a vector table `[N]` (collapsed_slice_dims `[0]`, start_index_map `[0]`, slice_sizes `[1]`):
    element `e` is the table at the index read signed and clamped into `[0, N − 1]` (`vecGather_apply_of`);
  * `table[idx]` of a table of rows `[N, B]` (offset_dims `[1]`, collapsed_slice_dims `[0]`, start_index_map `[0]`,
    slice_sizes `[1, B]`): row `e` is the table's row at the clamped index (`rowGather_apply_of`).

  A scatter's index is NOT clamped: an update whose index is negative or past the extent lands nowhere. A gather's is.
-/
import Idealize.ShloMosaic.PureOps.Ideal
import Idealize.ShloMosaic.Lib.ValueIdx

noncomputable section

open scoped BigOperators

namespace Cert.LibScatter

open Idealize.ShloMosaic Idealize.ShloMosaic.ValueIdx

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) :=
  Fintype.sum_equiv
    (⟨fun i => i 0, ix1, fun i => (eq_ix1 i).symm, fun _ => rfl⟩ : (⟨1, ![n]⟩ : Shape).Idx ≃ Fin n)
    f (fun a => f (ix1 a)) (fun i => congrArg f (eq_ix1 i))

/-! ## The scatter-add of a vector of updates into a vector -/

/-- The dimension numbers of `segment_sum` of a vector: operand `[N]`, scatter indices `[E, 1]`, updates `[E]`;
    their conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecCoordinates

variable {N E w : Nat} (wf : ScatterDims.WF ⟨1, ![N]⟩ ⟨2, ![E, 1]⟩ ⟨1, ![E]⟩ [] [0] [0] 1)

/-- On the operand's one axis the window of update `e` starts at the scatter index `idx[e, 0]`, read signed. -/
theorem vec_start (j : (⟨1, ![E]⟩ : Shape).Idx) (idx : IVec ⟨2, ![E, 1]⟩ w) :
    (vecScatterDims N E wf).start j idx 0 = (idx (ix2 (j 0) ⟨0, Nat.one_pos⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's axis is an inserted one: an update is a single element, with no window coordinate. -/
theorem vec_window (j : (⟨1, ![E]⟩ : Shape).Idx) : (vecScatterDims N E wf).window j 0 = 0 := by
  unfold ScatterDims.window
  rw [dif_neg (show (0 : Fin 1) ∉ (vecScatterDims N E wf).sKept by
    simp [ScatterDims.sKept, Shape.kept, List.mem_filter])]

/-- Update `e` lands on element `i` exactly when its scatter index, read signed, is `i` (an index outside
    `[0, N)` is no element, so such an update lands nowhere). -/
theorem vec_resultIdx?_eq_some_iff (j : (⟨1, ![E]⟩ : Shape).Idx) (idx : IVec ⟨2, ![E, 1]⟩ w)
    (i : (⟨1, ![N]⟩ : Shape).Idx) :
    (vecScatterDims N E wf).resultIdx? j idx = some i ↔
      (idx (ix2 (j 0) ⟨0, Nat.one_pos⟩)).toInt = ((i 0).val : Int) := by
  have hs0 := vec_start wf j idx
  have hw0 := vec_window wf j
  have hi0 : (i 0).val < N := (i 0).isLt
  unfold ScatterDims.resultIdx?
  by_cases hall : ∀ a, 0 ≤ (vecScatterDims N E wf).start j idx a + (vecScatterDims N E wf).window j a ∧
      (vecScatterDims N E wf).start j idx a + (vecScatterDims N E wf).window j a
        < (⟨1, ![N]⟩ : Shape).size a
  · rw [dif_pos hall]
    constructor
    · intro h
      have h' := Option.some.inj h
      have h0 : ((vecScatterDims N E wf).start j idx 0 + (vecScatterDims N E wf).window j 0).toNat
          = (i 0).val := congrArg (fun f => (f 0).val) h'
      have ha0 := (hall 0).1
      rw [hs0, hw0] at h0 ha0
      omega
    · intro h0
      congr 1
      funext a
      refine Fin.ext ?_
      match a with
      | ⟨0, _⟩ =>
        show ((vecScatterDims N E wf).start j idx 0 + (vecScatterDims N E wf).window j 0).toNat = (i 0).val
        rw [hs0, hw0, h0]; omega
  · rw [dif_neg hall]
    constructor
    · intro h; cases h
    · intro h0
      refine absurd ?_ hall
      intro a
      match a with
      | ⟨0, _⟩ =>
        show 0 ≤ (vecScatterDims N E wf).start j idx 0 + (vecScatterDims N E wf).window j 0 ∧
          (vecScatterDims N E wf).start j idx 0 + (vecScatterDims N E wf).window j 0 < (N : Int)
        rw [hs0, hw0, h0]; omega

end VecCoordinates

/-- segment_sum of a vector: element `i` of the result is `x i` plus the updates whose index word, read signed,
    is `i`. -/
theorem vecScatterAdd_apply_of {N E w : Nat} {wf : ScatterDims.WF ⟨1, ![N]⟩ ⟨2, ![E, 1]⟩ ⟨1, ![E]⟩ [] [0] [0] 1}
    (d : ScatterDims ⟨1, ![N]⟩ ⟨2, ![E, 1]⟩ ⟨1, ![E]⟩) (hd : d = vecScatterDims N E wf)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i) =
      x (ix1 i) + ∑ e ∈ Finset.univ.filter (fun e : Fin E =>
        (idx (ix2 e ⟨0, Nat.one_pos⟩)).toInt = (i.val : Int)), upd (ix1 e) := by
  subst hd
  unfold Ideal.hostScatterAdd
  congr 1
  rw [Finset.sum_filter, sum_idx1, Finset.sum_filter]
  refine Finset.sum_congr rfl fun e _ => ?_
  have hiff := vec_resultIdx?_eq_some_iff wf (ix1 e) idx (ix1 i)
  by_cases h : (idx (ix2 e ⟨0, Nat.one_pos⟩)).toInt = (i.val : Int)
  · rw [if_pos h, if_pos (hiff.2 h)]
  · rw [if_neg h, if_neg (fun hr => h (hiff.1 hr))]

/-! ## The scatter-add of a vector of updates into the entries of a matrix -/

/-- The dimension numbers of `A.at[rows, cols].add(v)`: operand `[N, M]`, scatter indices `[E, 2]` (a row and a
    column per update), updates `[E]`. -/
abbrev pointScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PointCoordinates

variable {N M E w : Nat} (wf : ScatterDims.WF ⟨2, ![N, M]⟩ ⟨2, ![E, 2]⟩ ⟨1, ![E]⟩ [] [0, 1] [0, 1] 1)

/-- On the row axis the window of update `e` starts at the first index word `idx[e, 0]`, read signed. -/
theorem point_start_row (j : (⟨1, ![E]⟩ : Shape).Idx) (idx : IVec ⟨2, ![E, 2]⟩ w) :
    (pointScatterDims N M E wf).start j idx 0 = (idx (ix2 (j 0) ⟨0, by omega⟩)).toInt := by
  unfold ScatterDims.start
  rw [dif_pos (show (0 : Fin 2) ∈ (pointScatterDims N M E wf).scatterDimsToOperandDims from
    List.mem_cons_self)]
  have hsi : (pointScatterDims N M E wf).siIdx j
      ⟨List.idxOf (0 : Fin 2) (pointScatterDims N M E wf).scatterDimsToOperandDims,
        List.idxOf_lt_length_iff.2 List.mem_cons_self⟩ = ix2 (j 0) ⟨0, by omega⟩ := by
    funext b; refine Fin.ext ?_
    match b with
    | ⟨0, _⟩ => rfl
    | ⟨1, _⟩ => rfl
  rw [hsi]
  rfl

/-- On the column axis it starts at the second index word `idx[e, 1]`, read signed. -/
theorem point_start_col (j : (⟨1, ![E]⟩ : Shape).Idx) (idx : IVec ⟨2, ![E, 2]⟩ w) :
    (pointScatterDims N M E wf).start j idx 1 = (idx (ix2 (j 0) ⟨1, by omega⟩)).toInt := by
  have hmem : (1 : Fin 2) ∈ (pointScatterDims N M E wf).scatterDimsToOperandDims :=
    List.mem_cons_of_mem _ (List.mem_singleton.mpr rfl)
  unfold ScatterDims.start
  rw [dif_pos hmem]
  have hsi : (pointScatterDims N M E wf).siIdx j
      ⟨List.idxOf (1 : Fin 2) (pointScatterDims N M E wf).scatterDimsToOperandDims,
        List.idxOf_lt_length_iff.2 hmem⟩ = ix2 (j 0) ⟨1, by omega⟩ := by
    funext b; refine Fin.ext ?_
    match b with
    | ⟨0, _⟩ => rfl
    | ⟨1, _⟩ => rfl
  rw [hsi]
  rfl

/-- Both operand axes are inserted ones: an update is a single entry, with no window coordinate. -/
theorem point_window (j : (⟨1, ![E]⟩ : Shape).Idx) (a : Fin 2) : (pointScatterDims N M E wf).window j a = 0 := by
  unfold ScatterDims.window
  rw [dif_neg (show a ∉ (pointScatterDims N M E wf).sKept by
    match a with
    | ⟨0, _⟩ => simp [ScatterDims.sKept, Shape.kept, List.mem_filter]
    | ⟨1, _⟩ => simp [ScatterDims.sKept, Shape.kept, List.mem_filter])]

/-- Update `e` lands on entry `i` exactly when its two index words, read signed, are `i`'s row and column (a word
    outside the extent names no row or column, so such an update lands nowhere). -/
theorem point_resultIdx?_eq_some_iff (j : (⟨1, ![E]⟩ : Shape).Idx) (idx : IVec ⟨2, ![E, 2]⟩ w)
    (i : (⟨2, ![N, M]⟩ : Shape).Idx) :
    (pointScatterDims N M E wf).resultIdx? j idx = some i ↔
      (idx (ix2 (j 0) ⟨0, by omega⟩)).toInt = ((i 0).val : Int) ∧
        (idx (ix2 (j 0) ⟨1, by omega⟩)).toInt = ((i 1).val : Int) := by
  have hs0 := point_start_row wf j idx
  have hs1 := point_start_col wf j idx
  have hw0 := point_window wf j 0
  have hw1 := point_window wf j 1
  have hi0 := idx2_lt0 i
  have hi1 := idx2_lt1 i
  unfold ScatterDims.resultIdx?
  by_cases hall : ∀ a, 0 ≤ (pointScatterDims N M E wf).start j idx a + (pointScatterDims N M E wf).window j a ∧
      (pointScatterDims N M E wf).start j idx a + (pointScatterDims N M E wf).window j a
        < (⟨2, ![N, M]⟩ : Shape).size a
  · rw [dif_pos hall]
    constructor
    · intro h
      have h' := Option.some.inj h
      have h0 : ((pointScatterDims N M E wf).start j idx 0 + (pointScatterDims N M E wf).window j 0).toNat
          = (i 0).val := congrArg (fun f => (f 0).val) h'
      have h1 : ((pointScatterDims N M E wf).start j idx 1 + (pointScatterDims N M E wf).window j 1).toNat
          = (i 1).val := congrArg (fun f => (f 1).val) h'
      have ha0 := (hall 0).1
      have ha1 := (hall 1).1
      rw [hs0, hw0] at h0 ha0
      rw [hs1, hw1] at h1 ha1
      refine ⟨by omega, by omega⟩
    · rintro ⟨h0, h1⟩
      congr 1
      funext a
      refine Fin.ext ?_
      match a with
      | ⟨0, _⟩ =>
        show ((pointScatterDims N M E wf).start j idx 0 + (pointScatterDims N M E wf).window j 0).toNat = (i 0).val
        rw [hs0, hw0, h0]; omega
      | ⟨1, _⟩ =>
        show ((pointScatterDims N M E wf).start j idx 1 + (pointScatterDims N M E wf).window j 1).toNat = (i 1).val
        rw [hs1, hw1, h1]; omega
  · rw [dif_neg hall]
    constructor
    · intro h; cases h
    · rintro ⟨h0, h1⟩
      refine absurd ?_ hall
      intro a
      match a with
      | ⟨0, _⟩ =>
        show 0 ≤ (pointScatterDims N M E wf).start j idx 0 + (pointScatterDims N M E wf).window j 0 ∧
          (pointScatterDims N M E wf).start j idx 0 + (pointScatterDims N M E wf).window j 0 < (N : Int)
        rw [hs0, hw0, h0]; omega
      | ⟨1, _⟩ =>
        show 0 ≤ (pointScatterDims N M E wf).start j idx 1 + (pointScatterDims N M E wf).window j 1 ∧
          (pointScatterDims N M E wf).start j idx 1 + (pointScatterDims N M E wf).window j 1 < (M : Int)
        rw [hs1, hw1, h1]; omega

end PointCoordinates

/-- A.at[rows, cols].add(v): entry `(i, j)` is `x (i, j)` plus the updates whose two index words, read signed,
    are `(i, j)`. -/
theorem pointScatterAdd_apply_of {N M E w : Nat}
    {wf : ScatterDims.WF ⟨2, ![N, M]⟩ ⟨2, ![E, 2]⟩ ⟨1, ![E]⟩ [] [0, 1] [0, 1] 1}
    (d : ScatterDims ⟨2, ![N, M]⟩ ⟨2, ![E, 2]⟩ ⟨1, ![E]⟩) (hd : d = pointScatterDims N M E wf)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd d x idx upd (ix2 i j) =
      x (ix2 i j) + ∑ e ∈ Finset.univ.filter (fun e : Fin E =>
        (idx (ix2 e ⟨0, by omega⟩)).toInt = (i.val : Int) ∧ (idx (ix2 e ⟨1, by omega⟩)).toInt = (j.val : Int)),
        upd (ix1 e) := by
  subst hd
  unfold Ideal.hostScatterAdd
  congr 1
  rw [Finset.sum_filter, sum_idx1, Finset.sum_filter]
  refine Finset.sum_congr rfl fun e _ => ?_
  have hiff := point_resultIdx?_eq_some_iff wf (ix1 e) idx (ix2 i j)
  by_cases h : (idx (ix2 e ⟨0, by omega⟩)).toInt = (i.val : Int) ∧ (idx (ix2 e ⟨1, by omega⟩)).toInt = (j.val : Int)
  · rw [if_pos h, if_pos (hiff.2 h)]
  · rw [if_neg h, if_neg (fun hr => h (hiff.1 hr))]

/-! ## The indexed read of a vector table -/

/-- The dimension numbers of `table[idx]` for a vector table: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- table[idx] for a vector table: the start index, read signed, is clamped into the table. -/
theorem vecGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = vecGatherDims N E wf)
    (x : (⟨1, ![N]⟩ : Shape).Idx → α) (idx : IVec ⟨2, ![E, 1]⟩ w) (e : Fin E) :
    Host.gather d x idx (ix1 e) =
      x (ix1 ⟨min (idx (ix2 e ⟨0, Nat.one_pos⟩)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-! ## The indexed read of a table of rows -/

/-- The dimension numbers of `table[idx]` for a table of rows: operand `[N, B]`, start indices `[E, 1]`, result
    `[E, B]`, a whole row per start index. -/
abbrev rowGatherDims (N E B : Nat)
    (wf : GatherDims.WF ⟨2, ![N, B]⟩ ⟨2, ![E, 1]⟩ ⟨2, ![E, B]⟩ [1] [0] [] [0] [] 1 ![1, B]) :
    GatherDims ⟨2, ![N, B]⟩ ⟨2, ![E, 1]⟩ ⟨2, ![E, B]⟩ where
  offsetDims := [1]
  collapsedSliceDims := [0]
  operandBatchingDims := []
  startIndicesBatchingDims := []
  startIndexMap := [0]
  indexVectorDim := 1
  sliceSizes := ![1, B]
  wf := wf

/-- table[idx] for a table of rows `[N, B]`: row `e` of the result is the table's row at the clamped index. -/
theorem rowGather_apply_of {α : Type} {N E B w : Nat} (hN : 0 < N)
    {wf : GatherDims.WF ⟨2, ![N, B]⟩ ⟨2, ![E, 1]⟩ ⟨2, ![E, B]⟩ [1] [0] [] [0] [] 1 ![1, B]}
    (d : GatherDims ⟨2, ![N, B]⟩ ⟨2, ![E, 1]⟩ ⟨2, ![E, B]⟩) (hd : d = rowGatherDims N E B wf)
    (x : (⟨2, ![N, B]⟩ : Shape).Idx → α) (idx : IVec ⟨2, ![E, 1]⟩ w) (e : Fin E) (b : Fin B) :
    Host.gather d x idx (ix2 e b) =
      x (ix2 ⟨min (idx (ix2 e ⟨0, Nat.one_pos⟩)).toInt.toNat (N - 1), by omega⟩ b) := by
  subst hd
  unfold Host.gather
  congr 1
  funext a
  refine Fin.ext ?_
  match a with
  | ⟨0, _⟩ =>
    -- the row axis: collapsed and start-indexed, the clamped start alone
    show (rowGatherDims N E B wf).start (ix2 e b) idx 0 + (rowGatherDims N E B wf).batchCoord (ix2 e b) 0
      + (rowGatherDims N E B wf).offCoord (ix2 e b) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E B wf).startIndexMap from List.mem_singleton.mpr rfl)]
    have hsi : (rowGatherDims N E B wf).siIdx (ix2 e b) ⟨List.idxOf (0 : Fin 2) (rowGatherDims N E B wf).startIndexMap,
        List.idxOf_lt_length_iff.2 (List.mem_singleton.mpr rfl)⟩ = ix2 e ⟨0, Nat.one_pos⟩ := by
      funext c; refine Fin.ext ?_
      match c with
      | ⟨0, _⟩ => rfl
      | ⟨1, _⟩ => rfl
    rw [hsi]
    rfl
  | ⟨1, _⟩ =>
    -- the column axis: an offset axis, the result's own column coordinate
    show (rowGatherDims N E B wf).start (ix2 e b) idx 1 + (rowGatherDims N E B wf).batchCoord (ix2 e b) 1
      + (rowGatherDims N E B wf).offCoord (ix2 e b) 1 = b.val
    have hst : (rowGatherDims N E B wf).start (ix2 e b) idx 1 = 0 := by
      unfold GatherDims.start
      rw [dif_neg (show (1 : Fin 2) ∉ (rowGatherDims N E B wf).startIndexMap from
        (by decide : (1 : Fin 2) ∉ ([0] : List (Fin 2))))]
    have hoff : (rowGatherDims N E B wf).offCoord (ix2 e b) 1 = b.val := by
      unfold GatherDims.offCoord
      rw [dif_pos (show (1 : Fin 2) ∈ (rowGatherDims N E B wf).sKept by
        simp [GatherDims.sKept, Shape.kept, List.mem_filter])]
      rfl
    rw [hst, hoff, GatherDims.batchCoord_eq_zero _ _ _ List.not_mem_nil]
    omega

end Cert.LibScatter

end
-- ==== Proof.LibJoinCols.lean ====
/-
  TWO ARRAYS JOINED SIDE BY SIDE, READ AT ONE ELEMENT.

  An array [n, a] and an array [n, b] joined along the column axis give an array [n, c] with c = a + b: element (p, k)
  is the left array's (p, k) when k < a and the right array's (p, k - a) otherwise (joined_left, joined_right). So if
  row p of two small arrays is row r of two large ones, piece by piece, then row p of the small joined array is row r
  of the large joined array (joined_row_eq): joining commutes with taking a block of rows.

  Generic in the extents and in the element type.
-/
import Idealize.ShloMosaic.Lib.Pipeline.Value
import Idealize.ShloMosaic.Lib.ValueIdx

namespace Cert.LibJoinCols

open Idealize.ShloMosaic Idealize.ShloMosaic.ValueIdx

variable {α : Type}

/-- The joined width is the sum of the two widths. -/
theorem width_eq {n a b c : Nat}
    (h : Shape.Concatenates [(⟨2, ![n, a]⟩ : Shape), ⟨2, ![n, b]⟩] ⟨2, ![n, c]⟩ 1) : a + b = c := by
  have e := h.2.2
  simp only [List.map, List.sum_cons, List.sum_nil, dite_true, Nat.add_zero] at e
  exact e

/-- A column of the left part: element (p, k) of the joined array is element (p, k) of the left array. -/
theorem joined_left {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₁ : Fin a) (hk : k₁.val = k.val) :
    concatenate ⟨2, ![n, c]⟩ 1 [⟨⟨2, ![n, a]⟩, x⟩, ⟨⟨2, ![n, b]⟩, y⟩] h (ix2 p k) = x (ix2 p k₁) :=
  concatenate_pair_apply_left 1 x y h (ix2 p k) rfl (ix2 p k₁) (fun d => by
    match d with
    | ⟨0, _⟩ => rfl
    | ⟨1, _⟩ => exact hk)

/-- A column of the right part: element (p, k) of the joined array is element (p, k - a) of the right array. -/
theorem joined_right {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₂ : Fin b) (hk : k₂.val + a = k.val) :
    concatenate ⟨2, ![n, c]⟩ 1 [⟨⟨2, ![n, a]⟩, x⟩, ⟨⟨2, ![n, b]⟩, y⟩] h (ix2 p k) = y (ix2 p k₂) :=
  concatenate_pair_apply_right 1 x y h (ix2 p k) rfl rfl (ix2 p k₂) (fun d hd => by
    match d with
    | ⟨0, _⟩ => rfl
    | ⟨1, _⟩ => exact absurd rfl hd) hk

/-- Joining commutes with taking rows: if row p of x is row r of X and row p of y is row r of Y, then row p of x
    joined with y is row r of X joined with Y. -/
theorem joined_row_eq {n N a b c : Nat}
    (h₁ : Shape.Concatenates [(⟨2, ![n, a]⟩ : Shape), ⟨2, ![n, b]⟩] ⟨2, ![n, c]⟩ 1)
    (h₂ : Shape.Concatenates [(⟨2, ![N, a]⟩ : Shape), ⟨2, ![N, b]⟩] ⟨2, ![N, c]⟩ 1)
    (x : (⟨2, ![n, a]⟩ : Shape).Idx → α) (y : (⟨2, ![n, b]⟩ : Shape).Idx → α)
    (X : (⟨2, ![N, a]⟩ : Shape).Idx → α) (Y : (⟨2, ![N, b]⟩ : Shape).Idx → α)
    (p : Fin n) (r : Fin N)
    (hx : ∀ k : Fin a, x (ix2 p k) = X (ix2 r k)) (hy : ∀ k : Fin b, y (ix2 p k) = Y (ix2 r k)) (k : Fin c) :
    concatenate ⟨2, ![n, c]⟩ 1 [⟨⟨2, ![n, a]⟩, x⟩, ⟨⟨2, ![n, b]⟩, y⟩] h₁ (ix2 p k)
      = concatenate ⟨2, ![N, c]⟩ 1 [⟨⟨2, ![N, a]⟩, X⟩, ⟨⟨2, ![N, b]⟩, Y⟩] h₂ (ix2 r k) := by
  have hc := width_eq h₁
  have hkc := k.isLt
  by_cases hk : k.val < a
  · rw [joined_left h₁ x y p k ⟨k.val, hk⟩ rfl, joined_left h₂ X Y r k ⟨k.val, hk⟩ rfl]
    exact hx _
  · have hk2 : k.val - a < b := by omega
    rw [joined_right h₁ x y p k ⟨k.val - a, hk2⟩ (by show k.val - a + a = k.val; omega),
      joined_right h₂ X Y r k ⟨k.val - a, hk2⟩ (by show k.val - a + a = k.val; omega)]
    exact hy _

end Cert.LibJoinCols
-- ==== Proof.RefValue.lean ====
/-
  The reference program's result at one edge, read operation by operation: the score of the edge, with the node
  features in the reference's own spelling (the products the other way round, the logistic function written out,
  the twenty products of the joined features summed at once).
-/
import proofs.«123196_j22153441312926_1_alg».proof.Proof.Gen.ReferenceIdeal.Read
import proofs.«123196_j22153441312926_1_alg».proof.Proof.Spec
import proofs.«123196_j22153441312926_1_alg».proof.Proof.LibScatter
import proofs.«123196_j22153441312926_1_alg».proof.Proof.LibJoinCols
import Idealize.ShloMosaic.Lib.ValueLayout
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeSpec

/-- The node features: the reference's table of logistic values is the specification's feature function. -/
theorem feat_apply (x0 : (⟨S125000x3, .f32⟩ : BufTy).Contents (Elt Ideal))
    (x2 : (⟨S10x3, .f32⟩ : BufTy).Contents (Elt Ideal)) (x3 : (⟨S10, .f32⟩ : BufTy).Contents (Elt Ideal))
    (n : Fin 125000) (k : Fin 10) :
    val_main_v10 (F := Ideal) x0 x2 x3 (ix2 n k) = feat x0 x2 x3 n k := by
  rw [val_main_v10_apply, val_main_v9_apply, val_main_cst_0_apply, val_main_v8_apply, val_main_v7_apply,
    val_main_cst_apply, val_main_v6_apply, val_main_v5_apply, val_main_v4_apply, val_main_v3_apply,
    val_main_v2_apply, val_main_v1_apply]
  simp only [val_main_v0_apply]
  have hl : ∀ q : Fin 3, lidx_main_v1 (ix2 n k) q = ix2 n q := fun q =>
    funext fun a => Fin.ext (by match a with | ⟨0, _⟩ => rfl | ⟨1, _⟩ => rfl)
  have hr : ∀ q : Fin 3, idx_main_v0 (ridx_main_v1 (ix2 n k) q) = ix2 k q := fun q =>
    funext fun a => Fin.ext (by match a with | ⟨0, _⟩ => rfl | ⟨1, _⟩ => rfl)
  have hb : idx_main_v2 (idx_main_v3 (ix2 n k)) = ix1 k :=
    funext fun a => Fin.ext (by match a with | ⟨0, _⟩ => rfl)
  simp only [hl, hr, hb, Ideal.hostDivf_def, Ideal.ofBits_def, Ideal.addf_def, Ideal.hostUnary_exp_def,
    Ideal.hostNegf_def, Ideal.negf_def, Ideal.ofBits_one_f32]
  have hs : ∑ q : Fin 3, x0 (ix2 n q) * x2 (ix2 k q) = ∑ q : Fin 3, x2 (ix2 k q) * x0 (ix2 n q) :=
    Finset.sum_congr rfl fun q _ => mul_comm _ _
  rw [hs]
  rfl

/-- A gathered row of the feature table is the feature vector of the node the index column names. -/
theorem gathered_apply (x0 : (⟨S125000x3, .f32⟩ : BufTy).Contents (Elt Ideal))
    (x2 : (⟨S10x3, .f32⟩ : BufTy).Contents (Elt Ideal)) (x3 : (⟨S10, .f32⟩ : BufTy).Contents (Elt Ideal))
    (I : IVec S4000000x1 32) (e : Fin 4000000) (k : Fin 10) :
    Host.gather gather_S125000x10_S4000000x1_S4000000x10_1_0_n_n_0_1_110 (val_main_v10 (F := Ideal) x0 x2 x3) I (ix2 e k)
      = feat x0 x2 x3 (node I e) k := by
  rw [Cert.LibScatter.rowGather_apply_of (by decide) gather_S125000x10_S4000000x1_S4000000x10_1_0_n_n_0_1_110 rfl]
  exact feat_apply x0 x2 x3 _ k

/-- Row e of the first gathered array: the features of the source endpoint of edge e. -/
theorem src_apply (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (e : Fin 4000000) (k : Fin 10) :
    val_main_v32 (F := Ideal) x0 x1 x2 x3 (ix2 e k) = feat x0 x2 x3 (node (val_main_v31 (F := Ideal) x1) e) k :=
  gathered_apply x0 x2 x3 _ e k

/-- Row e of the second gathered array: the features of the destination endpoint of edge e. -/
theorem dst_apply (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (e : Fin 4000000) (k : Fin 10) :
    val_main_v39 (F := Ideal) x0 x1 x2 x3 (ix2 e k) = feat x0 x2 x3 (node (val_main_v38 (F := Ideal) x1) e) k :=
  gathered_apply x0 x2 x3 _ e k

/-- The comparison bit of an edge, converted to a number: 1 when the two endpoints' feature vectors are closer than one half. -/
theorem near_apply (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (e : Fin 4000000) :
    val_main_v51 (F := Ideal) x0 x1 x2 x3 (ix2 e 0)
      = near (fun k => feat x0 x2 x3 (node (val_main_v31 (F := Ideal) x1) e) k)
          (fun k => feat x0 x2 x3 (node (val_main_v38 (F := Ideal) x1) e) k) := by
  rw [val_main_v51_apply, val_main_v50_apply, val_main_v43_apply, val_main_v42_apply, val_main_cst_6_apply,
    val_main_v41_apply, val_main_call0_v1_apply, val_main_call0_cst_apply]
  simp only [val_main_call0_v0_apply, val_main_v40_apply]
  have hi : ∀ k : Fin 10, idx_main_call0_v1 (idx_main_v50 (ix2 e 0)) k = ix2 e k := fun k =>
    funext fun a => Fin.ext (by match a with | ⟨0, _⟩ => rfl | ⟨1, _⟩ => rfl)
  simp only [hi, src_apply, dst_apply]
  simp only [Ideal.ofBits_def, Ideal.ofBits_zero_f32, zero_add, Ideal.mulf_def, Ideal.subf_def,
    Ideal.hostUnary_sqrt_def, Ideal.cmpf_def]
  rfl

/-- The left ten columns of the joined array are the source endpoint's features. -/
theorem joined_src (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (e : Fin 4000000) (k : Fin 10) :
    val_main_v44 (F := Ideal) x0 x1 x2 x3 (ix2 e (⟨k.val, by omega⟩ : Fin 20))
      = feat x0 x2 x3 (node (val_main_v31 (F := Ideal) x1) e) k := by
  unfold val_main_v44
  rw [Cert.LibJoinCols.joined_left concatenates_S4000000x10_S4000000x10_S4000000x20_d1 _ _ e ⟨k.val, by omega⟩ k rfl]
  exact src_apply x0 x1 x2 x3 e k

/-- The right ten columns of the joined array are the destination endpoint's features. -/
theorem joined_dst (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (e : Fin 4000000) (k : Fin 10) :
    val_main_v44 (F := Ideal) x0 x1 x2 x3 (ix2 e (⟨k.val + 10, by omega⟩ : Fin 20))
      = feat x0 x2 x3 (node (val_main_v38 (F := Ideal) x1) e) k := by
  unfold val_main_v44
  rw [Cert.LibJoinCols.joined_right concatenates_S4000000x10_S4000000x10_S4000000x20_d1 _ _ e ⟨k.val + 10, by omega⟩ k rfl]
  exact dst_apply x0 x1 x2 x3 e k

/-- The product of the joined features with the output layer's weight row: the twenty products summed at once are
    the source half's ten plus the destination half's ten, each product with the weight in front. -/
theorem dot_apply (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (x6 : (⟨S1x20, .f32⟩ : BufTy).Contents (Elt Ideal)) (e : Fin 4000000) :
    val_main_v46 (F := Ideal) x0 x1 x2 x3 x6 (ix2 e 0)
      = (∑ k : Fin 10, x6 (ix2 0 (⟨k.val, by omega⟩ : Fin 20)) * feat x0 x2 x3 (node (val_main_v31 (F := Ideal) x1) e) k)
        + ∑ k : Fin 10, x6 (ix2 0 (⟨k.val + 10, by omega⟩ : Fin 20)) * feat x0 x2 x3 (node (val_main_v38 (F := Ideal) x1) e) k := by
  rw [val_main_v46_apply]
  simp only [val_main_v45_apply]
  have hl : ∀ k : Fin 20, lidx_main_v46 (ix2 e 0) k = ix2 e k := fun k =>
    funext fun a => Fin.ext (by match a with | ⟨0, _⟩ => rfl | ⟨1, _⟩ => rfl)
  have hr : ∀ k : Fin 20, idx_main_v45 (ridx_main_v46 (ix2 e 0) k) = ix2 0 k := fun k =>
    funext fun a => Fin.ext (by match a with | ⟨0, _⟩ => rfl | ⟨1, _⟩ => rfl)
  simp only [hl, hr]
  rw [sum_twenty]
  simp only [joined_src, joined_dst]
  exact congrArg₂ (· + ·) (Finset.sum_congr rfl fun k _ => mul_comm _ _) (Finset.sum_congr rfl fun k _ => mul_comm _ _)

/-- The reference's result at edge e is the score of edge e. -/
theorem ref_apply (x0 : (⟨S125000x3, .f32⟩ : BufTy).Contents (Elt Ideal)) (x1 : (⟨S2x4000000, .i32⟩ : BufTy).Contents (Elt Ideal))
    (x2 : (⟨S10x3, .f32⟩ : BufTy).Contents (Elt Ideal)) (x3 : (⟨S10, .f32⟩ : BufTy).Contents (Elt Ideal))
    (x6 : (⟨S1x20, .f32⟩ : BufTy).Contents (Elt Ideal)) (x7 : (⟨S1, .f32⟩ : BufTy).Contents (Elt Ideal)) (e : Fin 4000000) :
    val_main_v52 (F := Ideal) x0 x1 x2 x3 x6 x7 (ix2 e 0)
      = score x0 x2 x3 x6 x7 (val_main_v31 (F := Ideal) x1) (val_main_v38 (F := Ideal) x1) e := by
  rw [val_main_v52_apply, val_main_v49_apply, val_main_v48_apply, val_main_v47_apply, near_apply, dot_apply]
  have hb : idx_main_v47 (idx_main_v48 (ix2 e 0)) = ix1 0 :=
    funext fun a => Fin.ext (by match a with | ⟨0, _⟩ => rfl)
  rw [hb]
  rfl

end Cert.ReferenceIdeal.RefValue

end
-- ==== Proof.Bridge.lean ====
/-
  The two programs read an edge's endpoints the same way: row 0 (the sources) or row 1 (the targets) of the index
  array, a negative word moved up by the number of nodes, the result laid out as a column. The kernel program's
  two index columns are, term for term, the reference's.
-/
import proofs.«123196_j22153441312926_1_alg».proof.Proof.KernelValue
import proofs.«123196_j22153441312926_1_alg».proof.Proof.RefValue

set_option maxRecDepth 16384

noncomputable section

namespace Cert.Proof.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

theorem src_col (c : Dev nD) :
    V3 m ρ c main_v12 = Cert.ReferenceIdeal.Read.val_main_v31 (F := Ideal) (m ((c : Thread nD τ).loc main_arg1)) := by
  rw [← Cert.KernelIdeal.KValue.W2_arg1 m ρ c]
  have e : V3 m ρ c main_v12 = StableHlo.after hostOps1 (W2 m ρ c) (Proc.devRef .tc main_v12) := rfl
  rw [e]
  after_results
  unfold Cert.ReferenceIdeal.Read.val_main_v31 Cert.ReferenceIdeal.Read.val_main_v30 Cert.ReferenceIdeal.Read.val_main_v29
    Cert.ReferenceIdeal.Read.val_main_v28 Cert.ReferenceIdeal.Read.val_main_v27 Cert.ReferenceIdeal.Read.val_main_v26
    Cert.ReferenceIdeal.Read.val_main_v23 Cert.ReferenceIdeal.Read.val_main_v22 Cert.ReferenceIdeal.Read.val_main_c
    Cert.ReferenceIdeal.Read.val_main_c_3
  rfl

theorem dst_col (c : Dev nD) :
    V3 m ρ c main_v19 = Cert.ReferenceIdeal.Read.val_main_v38 (F := Ideal) (m ((c : Thread nD τ).loc main_arg1)) := by
  rw [← Cert.KernelIdeal.KValue.W2_arg1 m ρ c]
  have e : V3 m ρ c main_v19 = StableHlo.after hostOps1 (W2 m ρ c) (Proc.devRef .tc main_v19) := rfl
  rw [e]
  after_results
  unfold Cert.ReferenceIdeal.Read.val_main_v38 Cert.ReferenceIdeal.Read.val_main_v37 Cert.ReferenceIdeal.Read.val_main_v36
    Cert.ReferenceIdeal.Read.val_main_v35 Cert.ReferenceIdeal.Read.val_main_v34 Cert.ReferenceIdeal.Read.val_main_v33
    Cert.ReferenceIdeal.Read.val_main_v25 Cert.ReferenceIdeal.Read.val_main_v24 Cert.ReferenceIdeal.Read.val_main_c_4
    Cert.ReferenceIdeal.Read.val_main_c_5
  rfl

end Cert.Proof.Bridge

end
-- ==== Proof.lean ====
/-
  Edge scores of a graph: the kernel program against its reference, over the extended reals.

  Both programs compute, for each of the 4,000,000 edges e with endpoints s and d (index words read signed, a negative
  one moved up by the number of nodes, then clamped into the node table),
      ( sum_k Wx(0, k) * h(s, k)  +  sum_k Wx(0, 10 + k) * h(d, k)  +  bx )  *  [ |h(s, .) - h(d, .)| < 1/2 ],
  where h(n, k) = logistic( sum_q W1(k, q) * x(n, q) + b1(k) ) is feature k of node n.

  The kernel program builds the feature table transposed, [10, 125000], in a first region (one block), gathers its
  columns on the host, scores the edges in a second region block by block (125 blocks of 32000 edges, the 20 products
  as two sums of ten) and transposes the row of scores; the reference builds the table [125000, 10], gathers rows,
  joins the two gathered arrays and takes one sum of twenty products. At the extended reals the two spellings of the
  logistic function are one function, products commute, and a sum of twenty terms is the sum of its two halves;
  nothing here needs the inputs to be finite.

  The frames of the two kernel programs are the generated ones; the reference's frame is its generated run with the
  result dropped; the ideal pass rewrote nothing, so there is nothing to preserve.
-/
import proofs.«123196_j22153441312926_1_alg».proof.Defs
import proofs.«123196_j22153441312926_1_alg».proof.Proof.Gen.Kernel
import proofs.«123196_j22153441312926_1_alg».proof.Proof.Gen.Kernel.Frame
import proofs.«123196_j22153441312926_1_alg».proof.Proof.Gen.KernelIdeal
import proofs.«123196_j22153441312926_1_alg».proof.Proof.Gen.KernelIdeal.Frame
import proofs.«123196_j22153441312926_1_alg».proof.Proof.Gen.ReferenceIdeal
import proofs.«123196_j22153441312926_1_alg».proof.Proof.Gen.ReferenceIdeal.Run
import proofs.«123196_j22153441312926_1_alg».proof.Proof.Gen.ReferenceIdeal.Read
import proofs.«123196_j22153441312926_1_alg».proof.Proof.Gen.Pre_finite_inputs
import proofs.«123196_j22153441312926_1_alg».proof.Proof.KernelRun
import proofs.«123196_j22153441312926_1_alg».proof.Proof.KernelValue
import proofs.«123196_j22153441312926_1_alg».proof.Proof.RefValue
import proofs.«123196_j22153441312926_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs, from memories agreeing on the arguments, end with one array of scores: at edge e both hold
    the score of e, the kernel's by its regions and host operations read back, the reference's operation by
    operation, and the index columns they read the endpoints from are the same terms. -/
theorem algebraic : Cert.algebraic_KernelIdeal_ReferenceIdeal := by
  intro m ρ m' ρ' _ hagree
  refine ⟨fun c => Cert.KernelIdeal.Gen.W5 m ρ c (Proc.devRef .tc Cert.KernelIdeal.main_v25),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨h0, h1, h2, h3, -, -, h6, h7⟩ := hagree c
  rw [h0, h1, h2, h3, h6, h7]
  funext i
  obtain ⟨e, z, rfl⟩ : ∃ (e : Fin 4000000) (z : Fin 1), i = ix2 e z := ⟨i 0, i 1, eq_ix2 i⟩
  obtain rfl : z = 0 := Subsingleton.elim _ _
  refine (Cert.ReferenceIdeal.RefValue.ref_apply _ _ _ _ _ _ e).trans ?_
  refine Eq.trans ?_ (Cert.KernelIdeal.KValue.kernel_value m ρ c e).symm
  rw [Cert.Proof.Bridge.src_col m ρ c, Cert.Proof.Bridge.dst_col m ρ c]

end

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
